-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1x1024x1024 : Shape := ⟨4, ![16, 1, 1024, 1024]⟩
abbrev S_ : Shape := ⟨0, ![]⟩

class Facts : Prop where
  bcast_S_S16x1x1024x1024 : S_.BroadcastsInDim S16x1x1024x1024 (![] : Fin 0 → Fin S16x1x1024x1024.rank)
  reducesTo_S16x1x1024x1024_S_d0_1_2_3 : S16x1x1024x1024.ReducesTo [0, 1, 2, 3] S_
  h_S_ : 0 < S_.numel

variable [Facts]

def fn {F : FTy → Type} [FloatOps F] (main_arg0 : FVec F S16x1x1024x1024 .f32) (main_arg1 : FVec F S16x1x1024x1024 .f32) : IVec S_ 1 :=
  let main_v0 : FVec F S16x1x1024x1024 .f32 := Host.absf main_arg0
  let main_cst : FVec F S_ .f32 := constant S_ .f32 0x7F800000#32
  let main_v1 : FVec F S16x1x1024x1024 .f32 := broadcastInDim S16x1x1024x1024 ![] bcast_S_S16x1x1024x1024 main_cst
  let main_v2 : IVec S16x1x1024x1024 1 := cmpf .olt main_v0 main_v1
  let main_c : IVec S_ 1 := constantI S_ 1 1#1
  let main_v3 : IVec S_ 1 := (fun x v => Host.reduce IntOp.andi x v reducesTo_S16x1x1024x1024_S_d0_1_2_3 h_S_) main_v2 main_c
  let main_v4 : FVec F S16x1x1024x1024 .f32 := Host.absf main_arg1
  let main_cst_0 : FVec F S_ .f32 := constant S_ .f32 0x7F800000#32
  let main_v5 : FVec F S16x1x1024x1024 .f32 := broadcastInDim S16x1x1024x1024 ![] bcast_S_S16x1x1024x1024 main_cst_0
  let main_v6 : IVec S16x1x1024x1024 1 := cmpf .olt main_v4 main_v5
  let main_c_1 : IVec S_ 1 := constantI S_ 1 1#1
  let main_v7 : IVec S_ 1 := (fun x v => Host.reduce IntOp.andi x v reducesTo_S16x1x1024x1024_S_d0_1_2_3 h_S_) main_v6 main_c_1
  let main_v8 : IVec S_ 1 := andi main_v3 main_v7
  main_v8
-- ==== Kernel.lean ====
abbrev S16x1x1024x1024 : Shape := ⟨4, ![16, 1, 1024, 1024]⟩
abbrev S16x1024x1024 : Shape := ⟨3, ![16, 1024, 1024]⟩
abbrev S16x8x128 : Shape := ⟨3, ![16, 8, 128]⟩
abbrev S1x1024x1024 : Shape := ⟨3, ![1, 1024, 1024]⟩
abbrev S1x8x128 : Shape := ⟨3, ![1, 8, 128]⟩
abbrev S1040x1024 : Shape := ⟨2, ![1040, 1024]⟩
abbrev S8x1024 : Shape := ⟨2, ![8, 1024]⟩
abbrev S1x128x1024 : Shape := ⟨3, ![1, 128, 1024]⟩
abbrev S128x1024 : Shape := ⟨2, ![128, 1024]⟩
abbrev S128x4 : Shape := ⟨2, ![128, 4]⟩
abbrev S128x1032 : Shape := ⟨2, ![128, 1032]⟩
abbrev S128x1031 : Shape := ⟨2, ![128, 1031]⟩
abbrev S128x1029 : Shape := ⟨2, ![128, 1029]⟩
abbrev S128x1025 : Shape := ⟨2, ![128, 1025]⟩
abbrev S1x1 : Shape := ⟨2, ![1, 1]⟩
abbrev S144x1024 : Shape := ⟨2, ![144, 1024]⟩
abbrev S136x1024 : Shape := ⟨2, ![136, 1024]⟩
abbrev S135x1024 : Shape := ⟨2, ![135, 1024]⟩
abbrev S133x1024 : Shape := ⟨2, ![133, 1024]⟩
abbrev S129x1024 : Shape := ⟨2, ![129, 1024]⟩
abbrev S128 : Shape := ⟨1, ![128]⟩
abbrev S128x1 : Shape := ⟨2, ![128, 1]⟩
abbrev S1 : Shape := ⟨1, ![1]⟩
abbrev S8x128 : Shape := ⟨2, ![8, 128]⟩
abbrev S_ : Shape := ⟨0, ![]⟩

abbrev nBuf : Space → Nat
  | .hbm => 9
  | .vmem => 8
  | .smem => 0
  | _ => 0

abbrev bufTy : (tb : Table) → Fin (tcTables nBuf tb) → BufTy
  | .hbm, ⟨0, _⟩ => ⟨S16x1x1024x1024, .f32⟩
  | .hbm, ⟨1, _⟩ => ⟨S16x1x1024x1024, .f32⟩
  | .hbm, ⟨2, _⟩ => ⟨S16x1024x1024, .f32⟩
  | .hbm, ⟨3, _⟩ => ⟨S16x1024x1024, .f32⟩
  | .hbm, ⟨4, _⟩ => ⟨S16x8x128, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1024x1024, .f32⟩
  | .local _ .vmem, ⟨4, _⟩ => ⟨S1x8x128, .f32⟩
  | .local _ .vmem, ⟨5, _⟩ => ⟨S1x8x128, .f32⟩
  | .local _ .vmem, ⟨6, _⟩ => ⟨S1040x1024, .f32⟩
  | .local _ .vmem, ⟨7, _⟩ => ⟨S1040x1024, .f32⟩
  | _, _ => ⟨S16x1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c8_i32 : BitVec 32 := 8#32
  let v16 : BitVec 32 := Scalar.addi c0_i32 c8_i32
  let c1_i32 : BitVec 32 := 1#32
  ⟨c0_i32, v16, c1_i32⟩
def k0_mult1 (k0_t1 : Fin k0_t1_loop.trips) : BitVec 32 :=
  let c0_i32 : BitVec 32 := 0#32
  let c1_i32 : BitVec 32 := 1#32
  let arg6 : BitVec 32 := Scf.iv c0_i32 c1_i32 k0_t1
  let c128_i32 : BitVec 32 := 128#32
  let v34 : BitVec 32 := Scalar.muli arg6 c128_i32
  v34
def k0_off1 (k0_t1 : Fin k0_t1_loop.trips) : Fin 3 → Nat :=
  let c0_21 : Index := 0#32
  let c0_i32 : BitVec 32 := 0#32
  let c1_i32 : BitVec 32 := 1#32
  let arg6 : BitVec 32 := Scf.iv c0_i32 c1_i32 k0_t1
  let c128_i32 : BitVec 32 := 128#32
  let v34 : BitVec 32 := Scalar.muli arg6 c128_i32
  let v35 : BitVec 32 := v34
  let v36 : Index := Scalar.indexCast v35
  let c0_22 : Index := 0#32
  ![0, v36.toNat, 0]
def k0_mult2 (k0_t1 : Fin k0_t1_loop.trips) : BitVec 32 :=
  let c0_i32 : BitVec 32 := 0#32
  let c1_i32 : BitVec 32 := 1#32
  let arg6 : BitVec 32 := Scf.iv c0_i32 c1_i32 k0_t1
  let c128_i32 : BitVec 32 := 128#32
  let v34 : BitVec 32 := Scalar.muli arg6 c128_i32
  let v35 : BitVec 32 := v34
  let c8_i32_23 : BitVec 32 := 8#32
  let v39 : BitVec 32 := Scalar.addi v35 c8_i32_23
  v39
def k0_off2 (k0_t1 : Fin k0_t1_loop.trips) : Fin 2 → Nat :=
  let c0_i32 : BitVec 32 := 0#32
  let c1_i32 : BitVec 32 := 1#32
  let arg6 : BitVec 32 := Scf.iv c0_i32 c1_i32 k0_t1
  let c128_i32 : BitVec 32 := 128#32
  let v34 : BitVec 32 := Scalar.muli arg6 c128_i32
  let v35 : BitVec 32 := v34
  let c8_i32_23 : BitVec 32 := 8#32
  let v39 : BitVec 32 := Scalar.addi v35 c8_i32_23
  let v40 : BitVec 32 := v39
  let v56 : Index := Scalar.indexCast v40
  let c0_26 : Index := 0#32
  ![v56.toNat, 0]
@[reducible] def k0_t2_loop : Scf.Loop 32 :=
  let c0_i32_11 : BitVec 32 := 0#32
  let c8_i32_12 : BitVec 32 := 8#32
  let v18 : BitVec 32 := Scalar.addi c0_i32_11 c8_i32_12
  let c1_i32_13 : BitVec 32 := 1#32
  ⟨c0_i32_11, v18, c1_i32_13⟩
def k0_mult3 (k0_t2 : Fin k0_t2_loop.trips) : BitVec 32 :=
  let c0_i32_11 : BitVec 32 := 0#32
  let c1_i32_13 : BitVec 32 := 1#32
  let arg6 : BitVec 32 := Scf.iv c0_i32_11 c1_i32_13 k0_t2
  let c128_i32 : BitVec 32 := 128#32
  let v34 : BitVec 32 := Scalar.muli arg6 c128_i32
  v34
def k0_off3 (k0_t2 : Fin k0_t2_loop.trips) : Fin 2 → Nat :=
  let c0_i32_11 : BitVec 32 := 0#32
  let c1_i32_13 : BitVec 32 := 1#32
  let arg6 : BitVec 32 := Scf.iv c0_i32_11 c1_i32_13 k0_t2
  let c128_i32 : BitVec 32 := 128#32
  let v34 : BitVec 32 := Scalar.muli arg6 c128_i32
  let v35 : BitVec 32 := v34
  let v36 : Index := Scalar.indexCast v35
  let c0_21 : Index := 0#32
  ![v36.toNat, 0]
def k0_off4 (k0_t2 : Fin k0_t2_loop.trips) : Fin 3 → Nat :=
  let c0_23 : Index := 0#32
  let c0_i32_11 : BitVec 32 := 0#32
  let c1_i32_13 : BitVec 32 := 1#32
  let arg6 : BitVec 32 := Scf.iv c0_i32_11 c1_i32_13 k0_t2
  let c128_i32 : BitVec 32 := 128#32
  let v34 : BitVec 32 := Scalar.muli arg6 c128_i32
  let v35 : BitVec 32 := v34
  let v67 : Index := Scalar.indexCast v35
  let c0_24 : Index := 0#32
  ![0, v67.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S16x1x1024x1024_S16x1024x1024 : S16x1x1024x1024.ShapeCasts S16x1024x1024
  inb_S1040x1024_S8x1024_0_0 : ∀ a, (![0, 0] : Fin 2 → Nat) a + S8x1024.size a ≤ S1040x1024.size a
  h_S8x1024 : 0 < S8x1024.numel
  shapeCasts_S8x1024_S8x1024 : S8x1024.ShapeCasts S8x1024
  inb_S1040x1024_S8x1024_1032_0 : ∀ a, (![1032, 0] : Fin 2 → Nat) a + S8x1024.size a ≤ S1040x1024.size a
  h_S1x128x1024 : 0 < S1x128x1024.numel
  shapeCasts_S1x128x1024_S128x1024 : S1x128x1024.ShapeCasts S128x1024
  concatenates_S128x4_S128x1024_S128x4_S128x1032_d1 : Shape.Concatenates [S128x4, S128x1024, S128x4] S128x1032 1
  slices_S128x1032_o0_0_S128x1031 : S128x1032.Slices ![0, 0] S128x1031
  slices_S128x1032_o0_1_S128x1031 : S128x1032.Slices ![0, 1] S128x1031
  slices_S128x1031_o0_0_S128x1029 : S128x1031.Slices ![0, 0] S128x1029
  slices_S128x1031_o0_2_S128x1029 : S128x1031.Slices ![0, 2] S128x1029
  slices_S128x1029_o0_0_S128x1025 : S128x1029.Slices ![0, 0] S128x1025
  slices_S128x1029_o0_4_S128x1025 : S128x1029.Slices ![0, 4] S128x1025
  slices_S128x1025_o0_0_S128x1024 : S128x1025.Slices ![0, 0] S128x1024
  slices_S128x1032_o0_8_S128x1024 : S128x1032.Slices ![0, 8] S128x1024
  h_S128x1024 : 0 < S128x1024.numel
  shapeCasts_S128x1024_S128x1024 : S128x1024.ShapeCasts S128x1024
  h_S144x1024 : 0 < S144x1024.numel
  slices_S144x1024_o4_0_S136x1024 : S144x1024.Slices ![4, 0] S136x1024
  slices_S136x1024_o0_0_S135x1024 : S136x1024.Slices ![0, 0] S135x1024
  slices_S136x1024_o1_0_S135x1024 : S136x1024.Slices ![1, 0] S135x1024
  slices_S135x1024_o0_0_S133x1024 : S135x1024.Slices ![0, 0] S133x1024
  slices_S135x1024_o2_0_S133x1024 : S135x1024.Slices ![2, 0] S133x1024
  slices_S133x1024_o0_0_S129x1024 : S133x1024.Slices ![0, 0] S129x1024
  slices_S133x1024_o4_0_S129x1024 : S133x1024.Slices ![4, 0] S129x1024
  slices_S129x1024_o0_0_S128x1024 : S129x1024.Slices ![0, 0] S128x1024
  slices_S136x1024_o8_0_S128x1024 : S136x1024.Slices ![8, 0] S128x1024
  reduces_S128x1024_S128 : S128x1024.Reduces [1] S128
  shapeCasts_S128_S128x1 : S128.ShapeCasts S128x1
  reduces_S128x1_S1 : S128x1.Reduces [0] S1
  shapeCasts_S1_S1x1 : S1.ShapeCasts S1x1
  iota_S8x128_d0_w32 : S8x128.Iotas .tc 32 [0]
  iota_S8x128_d1_w32 : S8x128.Iotas .tc 32 [1]
  inpos_S1x1_p0_0 : ∀ a, (![0, 0] : Fin 2 → Nat) a < S1x1.size a
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  reducesTo_S16x8x128_S_d0_1_2 : S16x8x128.ReducesTo [0, 1, 2] S_
  h_S_ : 0 < S_.numel
  hrank0 : 0 < grid0.rank
  k0_t1_ok : k0_t1_loop.OK
  k0_mult1_dvd : ∀ k0_t1 : Fin k0_t1_loop.trips, 128 ∣ (k0_mult1 k0_t1).toNat
  k0_off1_inb : ∀ k0_t1 : Fin k0_t1_loop.trips, ∀ a, (k0_off1 k0_t1) a + S1x128x1024.size a ≤ S1x1024x1024.size a
  k0_mult2_dvd : ∀ k0_t1 : Fin k0_t1_loop.trips, 8 ∣ (k0_mult2 k0_t1).toNat
  k0_off2_inb : ∀ k0_t1 : Fin k0_t1_loop.trips, ∀ a, (k0_off2 k0_t1) a + S128x1024.size a ≤ S1040x1024.size a
  k0_t2_ok : k0_t2_loop.OK
  k0_mult3_dvd : ∀ k0_t2 : Fin k0_t2_loop.trips, 128 ∣ (k0_mult3 k0_t2).toNat
  k0_off3_inb : ∀ k0_t2 : Fin k0_t2_loop.trips, ∀ a, (k0_off3 k0_t2) a + S144x1024.size a ≤ S1040x1024.size a
  k0_off4_inb : ∀ k0_t2 : Fin k0_t2_loop.trips, ∀ a, (k0_off4 k0_t2) a + S1x128x1024.size a ≤ S1x1024x1024.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S16x1024x1024.size a
  hwx0_0 : ∀ i : grid0.Coords, EltTy.bits .f32 = 32 ∨ (Rect.block (s := S16x1024x1024) S1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S16x1024x1024.size a
  hwx0_1 : ∀ i : grid0.Coords, EltTy.bits .f32 = 32 ∨ (Rect.block (s := S16x1024x1024) S1x1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x128.size a ≤ S16x8x128.size a
  hwx0_2 : ∀ i : grid0.Coords, EltTy.bits .f32 = 32 ∨ (Rect.block (s := S16x8x128) S1x8x128.size (cc0_transform_2 i) (hinb0_2 i)).WholeWords (EltTy.packing .f32)

variable [Facts₀]

abbrev win0_0 : Pipeline.Window sig grid0 :=
  Pipeline.Window.ofSpec (Memref.whole main_v0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x1x1024x1024 : Shape := ⟨4, ![16, 1, 1024, 1024]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S16x1x1024x1024, .f32⟩
  | .hbm, ⟨1, _⟩ => ⟨S16x1x1024x1024, .f32⟩
  | .hbm, ⟨2, _⟩ => ⟨S_, .f32⟩
  | .hbm, ⟨3, _⟩ => ⟨S_, .f32⟩
  | .hbm, ⟨4, _⟩ => ⟨S16x1x1024x1024, .f32⟩
  | .hbm, ⟨5, _⟩ => ⟨S_, .f32⟩
  | .hbm, ⟨6, _⟩ => ⟨S_, .f32⟩
  | .hbm, ⟨7, _⟩ => ⟨S16x1x1024x1024, .f32⟩
  | .hbm, ⟨8, _⟩ => ⟨S16x1x1024x1024, .f32⟩
  | .hbm, ⟨9, _⟩ => ⟨S_, .f32⟩
  | .hbm, ⟨10, _⟩ => ⟨S16x1x1024x1024, .f32⟩
  | .hbm, ⟨11, _⟩ => ⟨S16x1x1024x1024, .f32⟩
  | .hbm, ⟨12, _⟩ => ⟨S_, .f32⟩
  | .hbm, ⟨13, _⟩ => ⟨S16x1x1024x1024, .f32⟩
  | .hbm, ⟨14, _⟩ => ⟨S16x1x1024x1024, .f32⟩
  | .hbm, ⟨15, _⟩ => ⟨S_, .f32⟩
  | .hbm, ⟨16, _⟩ => ⟨S16x1x1024x1024, .f32⟩
  | .hbm, ⟨17, _⟩ => ⟨S16x1x1024x1024, .f32⟩
  | .hbm, ⟨18, _⟩ => ⟨S16x1x1024x1024, .f32⟩
  | .hbm, ⟨19, _⟩ => ⟨S16x1x1024x1024, .f32⟩
  | .hbm, ⟨20, _⟩ => ⟨S16x1x1024x1024, .f32⟩
  | .hbm, ⟨21, _⟩ => ⟨S16x1x1024x1024, .f32⟩
  | .hbm, ⟨22, _⟩ => ⟨S_, .f32⟩
  | .hbm, ⟨23, _⟩ => ⟨S16x1x1024x1024, .f32⟩
  | .hbm, ⟨24, _⟩ => ⟨S16x1x1024x1024, .f32⟩
  | .hbm, ⟨25, _⟩ => ⟨S16x1x1024x1024, .f32⟩
  | .hbm, ⟨26, _⟩ => ⟨S16x1x1024x1024, .f32⟩
  | .hbm, ⟨27, _⟩ => ⟨S16x1x1024x1024, .i1⟩
  | .hbm, ⟨28, _⟩ => ⟨S16x1x1024x1024, .f32⟩
  | .hbm, ⟨29, _⟩ => ⟨S16x1x1024x1024, .f32⟩
  | .hbm, ⟨30, _⟩ => ⟨S16x1x1024x1024, .f32⟩
  | .hbm, ⟨31, _⟩ => ⟨S16x1x1024x1024, .f32⟩
  | .hbm, ⟨32, _⟩ => ⟨S16x1x1024x1024, .f32⟩
  | .hbm, ⟨33, _⟩ => ⟨S16x1x1024x1024, .f32⟩
  | .hbm, ⟨34, _⟩ => ⟨S16x1x1024x1024, .f32⟩
  | .hbm, ⟨35, _⟩ => ⟨S16x1x1024x1024, .f32⟩
  | .hbm, ⟨36, _⟩ => ⟨S16x1x1024x1024, .f32⟩
  | .hbm, ⟨37, _⟩ => ⟨S16x1x1024x1024, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | _, _ => ⟨S16x1x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_v8 : Ref sig .tc := ⟨.hbm, 14, rfl⟩
abbrev main_cst_3 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_call0_cst : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst_4 : Ref sig .tc := ⟨.hbm, 38, rfl⟩
abbrev main_v18 : Ref sig .tc := ⟨.hbm, 39, rfl⟩
abbrev main_cst_5 : Ref sig .tc := ⟨.hbm, 40, rfl⟩
abbrev main_v19 : Ref sig .tc := ⟨.hbm, 41, rfl⟩

abbrev nD : Nat := 1
abbrev τ : Topo := Topo.v7x

variable {F : FTy → Type} [FloatOps F]

class Facts₀ : Prop where
  bcast_S_S_ : S_.BroadcastsInDim S_ (![] : Fin 0 → Fin S_.rank)
  reduceWindows_S16x1x1024x1024_S16x1x1024x1024_w1s1p0_0_w1s1p0_0_w9s1p4_4_w9s1p4_4 : S16x1x1024x1024.ReduceWindows (![1, 1, 9, 9] : Fin 4 → Nat) ![1, 1, 1, 1] ![0, 0, 4, 4] ![0, 0, 4, 4] S16x1x1024x1024
  h_S_ : 0 < S_.numel
  bcast_S_S16x1x1024x1024 : S_.BroadcastsInDim S16x1x1024x1024 (![] : Fin 0 → Fin S16x1x1024x1024.rank)
  reducesTo_S16x1x1024x1024_S_d0_1_2_3 : S16x1x1024x1024.ReducesTo [0, 1, 2, 3] S_

variable [Facts₀]

class Facts : Prop extends Facts₀ where

variable [Facts]
-- ==== Proof.Spec.lean ====
/-
  The mathematics both programs compute, stated once over the extended reals.

  Per image: a target mask `y` of 1024 x 1024 entries is dilated and eroded by a flat 9 x 9 window
  (greatest and least entry of the part of the window that lies inside the image; outside it the
  neutral element, so the border entries see a smaller window), the boundary band is their
  difference, and each pixel's stable binary cross entropy with logits
  `max x 0 - x*y + softplus (-|x|)` is weighted by `1 + 2 * boundary`. The result is the mean
  of the weighted entries over the 16 images.

  A window's greatest entry is carried by its universal property (`IsWinMax`): both programs
  take it in different orders (one fold over the 81 positions; a separable log-doubling
  arrangement through a row scratch), and two values with the same upper bounds are equal.
-/
import Idealize.ShloMosaic.PureOps.Ideal
import Idealize.ShloMosaic.PureOps.Ideal.Laws
import Idealize.ShloMosaic.Lib.ValueIdx

noncomputable section

namespace Cert.Spec

open Idealize.ShloMosaic

/-- Offset `d` (0..8) of a window of nine centred at position `p` lands inside an axis of length 1024:
    the position it names is `p + d - 4`. -/
def InWin (p d : ℕ) : Prop := 4 ≤ p + d ∧ p + d < 1028

instance (p d : ℕ) : Decidable (InWin p d) := by unfold InWin; infer_instance

/-- `D` is the greatest entry of `f` over the part of the 9 x 9 window centred at `(r, c)` that lies
    inside the image (and the bottom element when that part is empty, which it never is inside the image). -/
def IsWinMax (f : ℕ → ℕ → EReal) (r c : ℕ) (D : EReal) : Prop :=
  ∀ e : EReal, D ≤ e ↔ ∀ dr < 9, ∀ dc < 9, InWin r dr → InWin c dc → f (r + dr - 4) (c + dc - 4) ≤ e

/-- `E` is the least entry of `f` over the same part of the window. -/
def IsWinMin (f : ℕ → ℕ → EReal) (r c : ℕ) (E : EReal) : Prop :=
  ∀ e : EReal, e ≤ E ↔ ∀ dr < 9, ∀ dc < 9, InWin r dr → InWin c dc → e ≤ f (r + dr - 4) (c + dc - 4)

theorem IsWinMax.unique {f : ℕ → ℕ → EReal} {r c : ℕ} {D D' : EReal} (h : IsWinMax f r c D) (h' : IsWinMax f r c D') :
    D = D' :=
  le_antisymm ((h _).mpr ((h' _).mp le_rfl)) ((h' _).mpr ((h _).mp le_rfl))

theorem IsWinMin.unique {f : ℕ → ℕ → EReal} {r c : ℕ} {E E' : EReal} (h : IsWinMin f r c E) (h' : IsWinMin f r c E') :
    E = E' :=
  le_antisymm ((h' _).mpr ((h _).mp le_rfl)) ((h _).mpr ((h' _).mp le_rfl))

/-- The window property only looks at `f` inside the image. -/
theorem IsWinMax.congr {f g : ℕ → ℕ → EReal} {r c : ℕ} {D : EReal} (hfg : ∀ a b, a < 1024 → b < 1024 → f a b = g a b)
    (h : IsWinMax f r c D) : IsWinMax g r c D := by
  intro e
  rw [h e]
  refine forall_congr' fun dr => forall_congr' fun _ => forall_congr' fun dc => forall_congr' fun _ =>
    forall_congr' fun hr => forall_congr' fun hc => ?_
  rw [hfg _ _ (by unfold InWin at hr; omega) (by unfold InWin at hc; omega)]

theorem IsWinMin.congr {f g : ℕ → ℕ → EReal} {r c : ℕ} {E : EReal} (hfg : ∀ a b, a < 1024 → b < 1024 → f a b = g a b)
    (h : IsWinMin f r c E) : IsWinMin g r c E := by
  intro e
  rw [h e]
  refine forall_congr' fun dr => forall_congr' fun _ => forall_congr' fun dc => forall_congr' fun _ =>
    forall_congr' fun hr => forall_congr' fun hc => ?_
  rw [hfg _ _ (by unfold InWin at hr; omega) (by unfold InWin at hc; omega)]

/-- The three float literals of the weighting and of the loss, as the programs spell them. -/
abbrev ZERO : EReal := Ideal.ofBits .f32 0x00000000#32
abbrev ONE : EReal := Ideal.ofBits .f32 0x3F800000#32
abbrev TWO : EReal := Ideal.ofBits .f32 0x40000000#32

/-- `softplus n = max n 0 + log (1 + exp (-|n - 0|))`, the numerically stable spelling of `log (1 + exp n)`. -/
def softplus (n : EReal) : EReal :=
  max n ZERO + Ideal.log1p (Ideal.exp (-(max (n - ZERO) (-(n - ZERO)))))

/-- One pixel's binary cross entropy with logits: `max x 0 - x*y + softplus (-|x|)`. -/
def bce (x y : EReal) : EReal := (max x ZERO - x * y) + softplus (-(max x (-x)))

/-- One pixel's weighted loss from the dilated entry `D`, the eroded entry `E`, the logit and the target. -/
def weighted (D E x y : EReal) : EReal := (ONE + TWO * (D - E)) * bce x y

end Cert.Spec

end
-- ==== Proof.KernelHost.lean ====
/-
  The host side of the kernel program.

  The program reshapes its two arguments from [16,1,1024,1024] to [16,1024,1024], runs one grid of
  16 points (point t reads image t of each reshaped argument as a [1,1024,1024] block and writes
  block t, of shape [1,8,128], of a [16,8,128] output array), then sums that output array over all
  of its axes from the constant 0 and divides the sum by 16777216.

  This module states: the program's result as a function of the output array (the sum and the
  division); the output array entry by entry as the blocks the grid points write back (point t's
  block is row t of the array); and an input block entry by entry as the argument array's image t.
-/
import proofs.«410240_j29961691857675_3_alg».proof.Proof.KernelIdealFrame
import proofs.«410240_j29961691857675_3_alg».proof.Proof.Spec
import Idealize.ShloMosaic.Lib.Pipeline.Value
import Idealize.ShloMosaic.Lib.StableHlo.Run
import Idealize.ShloMosaic.Lib.ValueIdx
import Idealize.ShloMosaic.PureOps.Ideal.Laws

noncomputable section

namespace Cert.KernelIdeal.KHost

open Cert.KernelIdeal.Gen
open Idealize.ShloMosaic Idealize.ShloMosaic.TcCoe Idealize.ShloMosaic.Tactic
open Idealize.SL.Sem
open Idealize.ShloMosaic.ValueIdx
open Idealize.ShloMosaic.Pipeline (Dat Cfg Window)

/-! ## The host operations after the grid -/

/-- The program's result from the output array `W`: the sum of all of `W`'s entries, started from the
    constant 0, divided by the constant 16777216 (both kept as the words the program spells). -/
def ktail (W : FVec Ideal S16x8x128 .f32) : FVec Ideal S_ .f32 :=
  Host.divf (F := Ideal)
    (Host.reduceAdd (F := Ideal) W (constant (F := Ideal) S_ .f32 0x00000000#32) reducesTo_S16x8x128_S_d0_1_2 h_S_)
    (constant (F := Ideal) S_ .f32 0x4B800000#32)

/-- Read over the extended reals: the result's one entry is (0 + the sum of every entry of `W`) / 16777216. -/
theorem ktail_eq (W : FVec Ideal S16x8x128 .f32) :
    ktail W = fun _ => Ideal.div (Cert.Spec.ZERO + ∑ i : S16x8x128.Idx, W i) (Ideal.ofBits .f32 0x4B800000#32) := by
  funext j
  unfold ktail Host.divf Host.reduceAdd constant
  simp only [Ideal.hostDivf_def, Ideal.hostReduceAdd_def, Ideal.ofBits_def]
  rw [Ideal.hostReduceAdd_total _ (fun b => b.elim0)]

variable (m : (ℓ : Loc nD τ sig) → Buf (Elt Ideal) ℓ) (ρ : Dev nD → PrngReg)

/-! ## The run, read at the result -/

/-- The output array after the grid: its contents at the grid's entry overwritten, point by point, by the block
    each point writes back. -/
def outArr (c : Dev nD) : Vec Ideal S16x8x128 .f32 := (GenP.dats m 0 c).arrAt 2 cfg0.N

/-- What the result buffer holds after the four host operations that follow the grid: the constant 0, the sum of the
    output array from it, the constant 16777216, and the quotient — `ktail` of the output array. -/
theorem tail_v4 (c : Dev nD) :
    Pipeline.afterTail₀ cfgs (GenP.dats m) 0 (V0 m) [hostOps1] c main_v4 = ktail (outArr m c) := by
  unfold Pipeline.afterTail₀
  show StableHlo.after hostOps1 _ (Proc.devRef .tc main_v4) = _
  after_results
  rw [Pipeline.withArrays_arr spec0 launch0.win.arr_inj c _ _ 2]
  rfl

/-- The program's run: it terminates, its result is `ktail` of the output array the grid leaves, and its two
    arguments end as they were launched. -/
theorem run_kernel :
    θ_run (Cert.KernelIdeal.defs (F := Ideal)) (onTc (τ := τ) (Cert.KernelIdeal.main (F := Ideal))) ⟨m, fun _ => 0, ρ⟩
      (fun r => ∀ c : Dev nD,
        r.2.mem ((c.tc : Thread nD τ).loc main_v4) = ktail (outArr m c)
        ∧ r.2.mem ((c.tc : Thread nD τ).loc main_arg0) = m ((c.tc : Thread nD τ).loc main_arg0)
        ∧ r.2.mem ((c.tc : Thread nD τ).loc main_arg1) = m ((c.tc : Thread nD τ).loc main_arg1)) :=
  (θ_run defs _ _).mono (fun _ h c =>
    ⟨((h c).2 main_v4 (Pipeline.mem_restRefs_of main_v4 (by decide) (by decide))).trans (tail_v4 m c),
     ((h c).2 main_arg0 (Pipeline.mem_restRefs_of main_arg0 (by decide) (by decide))).trans (W_main_arg0 m (GenP.dats m) c),
     ((h c).2 main_arg1 (Pipeline.mem_restRefs_of main_arg1 (by decide) (by decide))).trans (W_main_arg1 m (GenP.dats m) c)⟩)
    (GenP.run_main m ρ)

/-! ## The input blocks as entries of the arguments -/

/-- The reshape [16,1,1024,1024] -> [16,1024,1024] read at an index: entry (t, r, q) is the operand's entry
    (t, 0, r, q) — the two have the same row-major position. -/
theorem reshape_apply {α : Type} (x : S16x1x1024x1024.Idx → α) (h : S16x1x1024x1024.ShapeCasts S16x1024x1024)
    (t : Fin 16) (r q : Fin 1024) :
    shapeCast S16x1024x1024 x h (ix3 t r q) = x (ix4 t (0 : Fin 1) r q) :=
  shapeCast_apply x h _ _ (by
    rw [Shape.rowMajor_val_four, Shape.rowMajor_val_three]
    show ((t.val * 1 + 0) * 1024 + r.val) * 1024 + q.val = (t.val * 1024 + r.val) * 1024 + q.val
    omega)

/-- The block index maps over the grid: point `t` takes block (t, 0, 0) of each of the three arrays. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

/-- The first reshaped array, as the grid finds it, is the reshape of the first argument. -/
theorem V_v0 (c : Dev nD) :
    (V m c main_v0 : S16x1024x1024.Idx → EReal)
      = shapeCast S16x1024x1024 (m ((c.tc : Thread nD τ).loc main_arg0) : S16x1x1024x1024.Idx → EReal) shapeCasts_S16x1x1024x1024_S16x1024x1024 := by
  dsimp only [Gen.V, Gen.V0]
  simp only [hostOps0, List.flatten_cons, List.flatten_nil, List.append_nil]
  after_results
  rfl

/-- The second reshaped array, as the grid finds it, is the reshape of the second argument. -/
theorem V_v1 (c : Dev nD) :
    (V m c main_v1 : S16x1024x1024.Idx → EReal)
      = shapeCast S16x1024x1024 (m ((c.tc : Thread nD τ).loc main_arg1) : S16x1x1024x1024.Idx → EReal) shapeCasts_S16x1x1024x1024_S16x1024x1024 := by
  dsimp only [Gen.V, Gen.V0]
  simp only [hostOps0, List.flatten_cons, List.flatten_nil, List.append_nil]
  after_results
  rfl

/-- Point `t`'s block of the first reshaped array is its image `t`: entry (0, r, q) of the block sits in the array
    at (t·1 + 0, 0·1024 + r, 0·1024 + q). -/
theorem iblk0_V (c : Dev nD) (t : Fin cfg0.N) (k : Fin 16) (hk : k.val = t.val) (r q : Fin 1024) :
    (iblk m c 0 t : Vec Ideal S1x1024x1024 .f32) (ix3 0 r q) = (V m c main_v0 : S16x1024x1024.Idx → EReal) (ix3 k r q) := by
  obtain ⟨e0, e1, e2, -⟩ := idx_facts t
  unfold iblk
  rw [View.read_apply]
  show (V m c main_v0 : S16x1024x1024.Idx → EReal) (((cfg0.win 0).blk t).view.emb (ix3 0 r q)) = (V m c main_v0 : S16x1024x1024.Idx → EReal) (ix3 k r q)
  refine congrArg (V m c main_v0 : S16x1024x1024.Idx → EReal) ?_
  funext a
  apply Fin.ext
  match a with
  | ⟨0, _⟩ => show win0_0.index t (0 : Fin 3) * 1 + 1 * 0 = k.val; omega
  | ⟨1, _⟩ => show win0_0.index t (1 : Fin 3) * 1024 + 1 * r.val = r.val; omega
  | ⟨2, _⟩ => show win0_0.index t (2 : Fin 3) * 1024 + 1 * q.val = q.val; omega

/-- The same for the second reshaped array. -/
theorem iblk1_V (c : Dev nD) (t : Fin cfg0.N) (k : Fin 16) (hk : k.val = t.val) (r q : Fin 1024) :
    (iblk m c 1 t : Vec Ideal S1x1024x1024 .f32) (ix3 0 r q) = (V m c main_v1 : S16x1024x1024.Idx → EReal) (ix3 k r q) := by
  obtain ⟨-, -, -, e0, e1, e2, -⟩ := idx_facts t
  unfold iblk
  rw [View.read_apply]
  show (V m c main_v1 : S16x1024x1024.Idx → EReal) (((cfg0.win 1).blk t).view.emb (ix3 0 r q)) = (V m c main_v1 : S16x1024x1024.Idx → EReal) (ix3 k r q)
  refine congrArg (V m c main_v1 : S16x1024x1024.Idx → EReal) ?_
  funext a
  apply Fin.ext
  match a with
  | ⟨0, _⟩ => show win0_1.index t (0 : Fin 3) * 1 + 1 * 0 = k.val; omega
  | ⟨1, _⟩ => show win0_1.index t (1 : Fin 3) * 1024 + 1 * r.val = r.val; omega
  | ⟨2, _⟩ => show win0_1.index t (2 : Fin 3) * 1024 + 1 * q.val = q.val; omega

/-- Point `t`'s first input block, entry (0, r, q), is the first argument's entry (t, 0, r, q). -/
theorem iblk0_apply (c : Dev nD) (t : Fin 16) (h : t.val < cfg0.N) (r q : Fin 1024) :
    (iblk m c 0 ⟨t.val, h⟩ : Vec Ideal S1x1024x1024 .f32) (ix3 0 r q)
      = (m ((c.tc : Thread nD τ).loc main_arg0) : S16x1x1024x1024.Idx → EReal) (ix4 t 0 r q) := by
  rw [iblk0_V m c ⟨t.val, h⟩ t rfl r q, V_v0 m c]
  exact reshape_apply _ _ t r q

/-- Point `t`'s second input block, entry (0, r, q), is the second argument's entry (t, 0, r, q). -/
theorem iblk1_apply (c : Dev nD) (t : Fin 16) (h : t.val < cfg0.N) (r q : Fin 1024) :
    (iblk m c 1 ⟨t.val, h⟩ : Vec Ideal S1x1024x1024 .f32) (ix3 0 r q)
      = (m ((c.tc : Thread nD τ).loc main_arg1) : S16x1x1024x1024.Idx → EReal) (ix4 t 0 r q) := by
  rw [iblk1_V m c ⟨t.val, h⟩ t rfl r q, V_v1 m c]
  exact reshape_apply _ _ t r q

/-! ## The output array from the blocks the points write back -/

/-- Entry (a, l) of the block point `t` leaves in the output's staging buffer. -/
def rowOf (c : Dev nD) (t : Fin 16) (a : Fin 8) (l : Fin 128) : EReal :=
  (GenP.outsAt0 m c ⟨t.val, by show t.val < grid0.N; rw [N_0]; exact t.isLt⟩ : Vec Ideal S1x8x128 .f32) (ix3 0 a l)

/-- The array whose row `t` is the block point `t` leaves. -/
def outG (c : Dev nD) : Vec Ideal S16x8x128 .f32 := fun i => rowOf m c (i 0) (i 1) (i 2)

/-- Point `t`'s block of an array `G` of the output's shape is row `t` of `G`: entry (0, b, l) of the block sits in the
    array at (t·1 + 0, 0·8 + b, 0·128 + l). -/
theorem blk2_read (t : Fin cfg0.N) (k : Fin 16) (hk : k.val = t.val) (a : Fin 1) (b : Fin 8) (l : Fin 128)
    (G : S16x8x128.Idx → EReal) :
    (((cfg0.win 2).blk t).view.read (Elt Ideal) G : Vec Ideal S1x8x128 .f32) (ix3 a b l) = G (ix3 k b l) := by
  obtain ⟨-, -, -, -, -, -, e0, e1, e2⟩ := idx_facts t
  rw [View.read_apply]
  show G (((cfg0.win 2).blk t).view.emb (ix3 a b l)) = G (ix3 k b l)
  refine congrArg G ?_
  funext d
  apply Fin.ext
  have ha : a.val = 0 := by omega
  match d with
  | ⟨0, _⟩ => show win0_2.index t (0 : Fin 3) * 1 + 1 * a.val = k.val; omega
  | ⟨1, _⟩ => show win0_2.index t (1 : Fin 3) * 8 + 1 * b.val = b.val; omega
  | ⟨2, _⟩ => show win0_2.index t (2 : Fin 3) * 128 + 1 * l.val = l.val; omega

/-- What point `t` writes back is its block of the array of the blocks. -/
theorem flushed_eq (c : Dev nD) (t : Fin cfg0.N) :
    (GenP.dats m 0 c).flushed 2 t = ((cfg0.win 2).blk t).view.read (Elt Ideal) (outG m c) := by
  show (cfg0.win 2).cut (grid0.coords t) ((GenP.dats m 0 c).after 2 t) = _
  rw [GenP.after0_2]
  funext y
  obtain ⟨a, b, l, rfl⟩ : ∃ (a : Fin 1) (b : Fin 8) (l : Fin 128), y = ix3 a b l := ⟨y 0, y 1, y 2, eq_ix3 y⟩
  have hN : t.val < 16 := lt_of_lt_of_eq t.isLt (show cfg0.N = 16 from N_0)
  refine Eq.trans ?_ (blk2_read t ⟨t.val, hN⟩ rfl a b l (outG m c)).symm
  have ha : a = 0 := Fin.ext (by omega)
  subst ha
  rfl

/-- Every entry of the output array is in the block of the point its first coordinate names. -/
theorem cover (i : S16x8x128.Idx) :
    ∃ t : Fin cfg0.N, (cfg0.win 2).flush t = true ∧ i ∈ ((cfg0.win 2).blk t).view.set := by
  have h0 : (i 0).val < 16 := (i 0).isLt
  have h1 : (i 1).val < 8 := (i 1).isLt
  have h2 : (i 2).val < 128 := (i 2).isLt
  let t : Fin cfg0.N := ⟨(i 0).val, by show (i 0).val < grid0.N; rw [N_0]; exact h0⟩
  refine ⟨t, flush0_2 t, ?_⟩
  obtain ⟨-, -, -, -, -, -, e0, e1, e2⟩ := idx_facts t
  show i ∈ ((View.whole main_v2).slice (win0_2.rect t)).set
  rw [View.set_slice_whole, Rect.mem_set_unit]
  intro d
  match d with
  | ⟨0, _⟩ => show win0_2.index t (0 : Fin 3) * 1 ≤ (i 0).val ∧ (i 0).val < win0_2.index t (0 : Fin 3) * 1 + 1; rw [e0]; show (i 0).val * 1 ≤ (i 0).val ∧ (i 0).val < (i 0).val * 1 + 1; omega
  | ⟨1, _⟩ => show win0_2.index t (1 : Fin 3) * 8 ≤ (i 1).val ∧ (i 1).val < win0_2.index t (1 : Fin 3) * 8 + 8; omega
  | ⟨2, _⟩ => show win0_2.index t (2 : Fin 3) * 128 ≤ (i 2).val ∧ (i 2).val < win0_2.index t (2 : Fin 3) * 128 + 128; omega

/-- The output array after the grid is the array of the blocks: the blocks tile it, row by row. -/
theorem outArr_eq (c : Dev nD) : outArr m c = outG m c :=
  (GenP.dats m 0 c).arrAt_eq_of_cover 2 (outG m c) (fun t _ => flushed_eq m c t) cover

/-- Entry (t, a, l) of the output array is entry (0, a, l) of the block point `t` writes back. -/
theorem outArr_apply (c : Dev nD) (t : Fin 16) (h : t.val < cfg0.N) (a : Fin 8) (l : Fin 128) :
    outArr m c (ix3 t a l) = (GenP.outsAt0 m c ⟨t.val, h⟩ : Vec Ideal S1x8x128 .f32) (ix3 0 a l) := by
  rw [outArr_eq m c]
  rfl

end Cert.KernelIdeal.KHost

end
-- ==== Proof.Trips.lean ====
/-
  What one trip of each of the kernel body's two counted loops does, and what the first loop leaves in its two
  scratch arrays. Only the geometry is settled here (which store writes where, which load reads where), for every
  float family; what the payloads compute is the business of the modules that read them at an index.

  The first loop runs over eight chunks of 128 target rows. Trip `k` loads rows `128 k … 128 k + 127` of the
  targets block and stores a function of that chunk alone (`k0_pay11`, resp. `k0_pay12`) at rows
  `128 k + 8 … 128 k + 135` of the first (resp. second) scratch array. Before the loop the body fills rows `0 … 7`
  and `1032 … 1039` of each scratch with constant blocks (`k0_pay6` and `k0_pay7`, resp. `k0_pay8` and
  `k0_pay9`). The two margins and the eight chunks tile the 1040 rows, and every piece is a block of one function of
  the scratch index, so after the loop the scratch reads as that ONE function of the targets block (`scratchMax`,
  `scratchMin`): on the first and last eight rows the margin block's entry, and on a row `s` in between the payload
  of chunk `(s - 8) / 128` at its local row `(s - 8) % 128`.

  The second loop carries a 1 x 1 value. Trip `k` loads the 144 scratch rows `128 k … 128 k + 143` of both scratch
  arrays and chunk `k` of the logits and of the targets, and yields `k0_pay14` of the carried value and of what it
  loaded.
-/
import proofs.«410240_j29961691857675_3_alg».proof.Proof.Gen.KernelIdeal.Loops
import Idealize.ShloMosaic.Lib.Pipeline.Value
import Idealize.ShloMosaic.Lib.Pipeline.FrameBody
import Idealize.ShloMosaic.Lib.ValueIdx

noncomputable section

namespace Cert.KernelIdeal.Trips

open Cert.KernelIdeal Cert.KernelIdeal.Gen Idealize.ShloMosaic

variable {F : FTy → Type} [FloatOps F]

/-- The chunk of target rows trip `k` of the first loop loads: rows `128 k … 128 k + 127`. -/
abbrev R1 (k : Fin k0_t1_loop.trips) : Rect S1x1024x1024 := Rect.unit (k0_off1 k) S1x128x1024.size (k0_off1_inb k)
/-- Where trip `k` of the first loop stores: scratch rows `128 k + 8 … 128 k + 135`. -/
abbrev R2 (k : Fin k0_t1_loop.trips) : Rect S1040x1024 := Rect.unit (k0_off2 k) S128x1024.size (k0_off2_inb k)
/-- The 144 scratch rows trip `k` of the second loop loads: rows `128 k … 128 k + 143`. -/
abbrev R3 (k : Fin k0_t2_loop.trips) : Rect S1040x1024 := Rect.unit (k0_off3 k) S144x1024.size (k0_off3_inb k)
/-- The chunk of logit and target rows trip `k` of the second loop loads. -/
abbrev R4 (k : Fin k0_t2_loop.trips) : Rect S1x1024x1024 := Rect.unit (k0_off4 k) S1x128x1024.size (k0_off4_inb k)

/-- Trip `k` of the first loop writes one piece into each scratch, both at rows `128 k + 8 …`: a function
    (`k0_pay11`, resp. `k0_pay12`) of the chunk of target rows `128 k …` it loads. -/
theorem tripL_eq (𝒱 : Variants) (c : Dev nD) (bd : Option 𝒱.V) (i : grid0.Coords) (arg1 : Memref sig .tc .vmem S1x1024x1024 .f32) (harg1 : arg1.IsWhole) (arg2 : Memref sig .tc .vmem S1x1024x1024 .f32) (harg2 : arg2.IsWhole) (arg3 : Memref sig .tc .vmem S1x8x128 .f32) (harg3 : arg3.IsWhole) (arg4 : Memref sig .tc .vmem S1040x1024 .f32) (harg4 : arg4.IsWhole) (arg5 : Memref sig .tc .vmem S1040x1024 .f32) (harg5 : arg5.IsWhole) (X_arg2 : BufTy.Contents (Elt F) arg2.view.ty) (k : Fin k0_t1_loop.trips) :
    tripL_k0_t1 (F := F) 𝒱 c bd i arg1 harg1 arg2 harg2 arg3 harg3 arg4 harg4 arg5 harg5 X_arg2 k
      = ([⟨R2 k, k0_pay11 (View.ld (arg2.view.read (Elt F) X_arg2) (R1 k))⟩], [⟨R2 k, k0_pay12 (View.ld (arg2.view.read (Elt F) X_arg2) (R1 k))⟩]) := by
  unfold tripL_k0_t1 trip_k0_t1
  rfl

/-- Trip `k` of the second loop yields `k0_pay14` of the carried value, of the 144 rows `128 k …` of the two scratch
    arrays, and of chunk `k` of the logits and of the targets. -/
theorem tripR_eq (𝒱 : Variants) (c : Dev nD) (bd : Option 𝒱.V) (i : grid0.Coords) (arg1 : Memref sig .tc .vmem S1x1024x1024 .f32) (harg1 : arg1.IsWhole) (arg2 : Memref sig .tc .vmem S1x1024x1024 .f32) (harg2 : arg2.IsWhole) (arg3 : Memref sig .tc .vmem S1x8x128 .f32) (harg3 : arg3.IsWhole) (arg4 : Memref sig .tc .vmem S1040x1024 .f32) (harg4 : arg4.IsWhole) (arg5 : Memref sig .tc .vmem S1040x1024 .f32) (harg5 : arg5.IsWhole) (X_arg1 : BufTy.Contents (Elt F) arg1.view.ty) (X_arg2 : BufTy.Contents (Elt F) arg2.view.ty) (X_arg4 : BufTy.Contents (Elt F) arg4.view.ty) (X_arg5 : BufTy.Contents (Elt F) arg5.view.ty) (k : Fin k0_t2_loop.trips) (acc : FVec F S1x1 .f32) :
    tripR_k0_t2 (F := F) 𝒱 c bd i arg1 harg1 arg2 harg2 arg3 harg3 arg4 harg4 arg5 harg5 X_arg1 X_arg2 X_arg4 X_arg5 k acc
      = k0_pay14 acc (k0_pay3 (View.ld (arg4.view.read (Elt F) X_arg4) (R3 k)) (View.ld (arg5.view.read (Elt F) X_arg5) (R3 k)))
          (k0_pay4 (View.ld (arg1.view.read (Elt F) X_arg1) (R4 k)) (View.ld (arg2.view.read (Elt F) X_arg2) (R4 k)))
          (k0_pay5 (View.ld (arg1.view.read (Elt F) X_arg1) (R4 k))) (Scalar.ofBits .f32 0x00000000#32) := by
  unfold tripR_k0_t2 trip_k0_t2
  rfl

open Idealize.ShloMosaic.ValueIdx

/-! ## The first loop's pieces, and the scratch as one function -/

/-- The first loop runs eight trips. -/
theorem trips1 : k0_t1_loop.trips = 8 := by decide +kernel

/-- A list grown from the empty one by putting entry `k` of a finite family in front at step `k` holds, after `n` steps,
    exactly the entries below `n`. -/
theorem mem_grown {α : Type} {N : ℕ} (g : Fin N → α) (L : ℕ → List α) (h0 : L 0 = [])
    (hs : ∀ k : Fin N, L (k.val + 1) = [g k] ++ L k.val) :
    ∀ n, n ≤ N → ∀ p, p ∈ L n ↔ ∃ k : Fin N, k.val < n ∧ p = g k
  | 0, _, p => by
    rw [h0]
    exact ⟨fun h => absurd h List.not_mem_nil, fun ⟨k, hk, _⟩ => absurd hk (Nat.not_lt_zero _)⟩
  | n + 1, hn, p => by
    have hstep : L (n + 1) = [g ⟨n, hn⟩] ++ L n := hs ⟨n, hn⟩
    rw [hstep, List.singleton_append, List.mem_cons, mem_grown g L h0 hs n (Nat.le_of_succ_le hn) p]
    constructor
    · rintro (rfl | ⟨k, hk, rfl⟩)
      · exact ⟨⟨n, hn⟩, Nat.lt_succ_self n, rfl⟩
      · exact ⟨k, Nat.lt_succ_of_lt hk, rfl⟩
    · rintro ⟨k, hk, rfl⟩
      by_cases hkn : k.val = n
      · left
        exact congrArg g (Fin.ext hkn)
      · right
        exact ⟨k, by omega, rfl⟩

/-- The rows the body fills before the first loop, first scratch: the last eight rows, then the first eight. -/
abbrev marginsMax : List (View.Piece (Elt F) S1040x1024 .f32) :=
  [⟨Rect.unit ![1032, 0] S8x1024.size inb_S1040x1024_S8x1024_1032_0, k0_pay7 (F := F)⟩,
   ⟨Rect.unit ![0, 0] S8x1024.size inb_S1040x1024_S8x1024_0_0, k0_pay6 (F := F)⟩]

/-- The same for the second scratch. -/
abbrev marginsMin : List (View.Piece (Elt F) S1040x1024 .f32) :=
  [⟨Rect.unit ![1032, 0] S8x1024.size inb_S1040x1024_S8x1024_1032_0, k0_pay9 (F := F)⟩,
   ⟨Rect.unit ![0, 0] S8x1024.size inb_S1040x1024_S8x1024_0_0, k0_pay8 (F := F)⟩]

/-- Everything written into the first scratch up to the end of the first loop, last write first. -/
def piecesMax (𝒱 : Variants) (c : Dev nD) (bd : Option 𝒱.V) (i : grid0.Coords) (arg1 : Memref sig .tc .vmem S1x1024x1024 .f32) (harg1 : arg1.IsWhole) (arg2 : Memref sig .tc .vmem S1x1024x1024 .f32) (harg2 : arg2.IsWhole) (arg3 : Memref sig .tc .vmem S1x8x128 .f32) (harg3 : arg3.IsWhole) (arg4 : Memref sig .tc .vmem S1040x1024 .f32) (harg4 : arg4.IsWhole) (arg5 : Memref sig .tc .vmem S1040x1024 .f32) (harg5 : arg5.IsWhole) (X_arg2 : BufTy.Contents (Elt F) arg2.view.ty) : List (View.Piece (Elt F) S1040x1024 .f32) :=
  (pb_k0_t1 (F := F) 𝒱 c bd i arg1 harg1 arg2 harg2 arg3 harg3 arg4 harg4 arg5 harg5 X_arg2 (Scf.trips k0_t1_loop.lb k0_t1_loop.ub k0_t1_loop.st)).1 ++ marginsMax

/-- Everything written into the second scratch up to the end of the first loop, last write first. -/
def piecesMin (𝒱 : Variants) (c : Dev nD) (bd : Option 𝒱.V) (i : grid0.Coords) (arg1 : Memref sig .tc .vmem S1x1024x1024 .f32) (harg1 : arg1.IsWhole) (arg2 : Memref sig .tc .vmem S1x1024x1024 .f32) (harg2 : arg2.IsWhole) (arg3 : Memref sig .tc .vmem S1x8x128 .f32) (harg3 : arg3.IsWhole) (arg4 : Memref sig .tc .vmem S1040x1024 .f32) (harg4 : arg4.IsWhole) (arg5 : Memref sig .tc .vmem S1040x1024 .f32) (harg5 : arg5.IsWhole) (X_arg2 : BufTy.Contents (Elt F) arg2.view.ty) : List (View.Piece (Elt F) S1040x1024 .f32) :=
  (pb_k0_t1 (F := F) 𝒱 c bd i arg1 harg1 arg2 harg2 arg3 harg3 arg4 harg4 arg5 harg5 X_arg2 (Scf.trips k0_t1_loop.lb k0_t1_loop.ub k0_t1_loop.st)).2 ++ marginsMin

/-- The first scratch after the first loop, as one function of the targets block `x1`: on row `s`, column `c`,
    the low margin's entry for `s < 8`; the high margin's entry at row `s - 1032` for `1032 ≤ s`; and in between the
    payload `k0_pay11` of chunk `(s - 8) / 128` of the targets at its local row `(s - 8) % 128`. -/
def scratchMax (x1 : Vec F S1x1024x1024 .f32) (y : S1040x1024.Idx) : Elt F .f32 :=
  if h0 : (y 0).val < 8 then
    k0_pay6 (F := F) (ix2 (⟨(y 0).val, h0⟩ : Fin 8) (⟨(y 1).val, idx2_lt1 y⟩ : Fin 1024))
  else if h1 : (y 0).val < 1032 then
    k0_pay11 (View.ld x1 (R1 ⟨((y 0).val - 8) / 128, Nat.lt_of_lt_of_eq (by omega) trips1.symm⟩))
      (ix2 (⟨((y 0).val - 8) % 128, Nat.mod_lt _ (by omega)⟩ : Fin 128) (⟨(y 1).val, idx2_lt1 y⟩ : Fin 1024))
  else
    k0_pay7 (F := F) (ix2 (⟨(y 0).val - 1032, by have := idx2_lt0 y; omega⟩ : Fin 8) (⟨(y 1).val, idx2_lt1 y⟩ : Fin 1024))

/-- The second scratch after the first loop, likewise. -/
def scratchMin (x1 : Vec F S1x1024x1024 .f32) (y : S1040x1024.Idx) : Elt F .f32 :=
  if h0 : (y 0).val < 8 then
    k0_pay8 (F := F) (ix2 (⟨(y 0).val, h0⟩ : Fin 8) (⟨(y 1).val, idx2_lt1 y⟩ : Fin 1024))
  else if h1 : (y 0).val < 1032 then
    k0_pay12 (View.ld x1 (R1 ⟨((y 0).val - 8) / 128, Nat.lt_of_lt_of_eq (by omega) trips1.symm⟩))
      (ix2 (⟨((y 0).val - 8) % 128, Nat.mod_lt _ (by omega)⟩ : Fin 128) (⟨(y 1).val, idx2_lt1 y⟩ : Fin 1024))
  else
    k0_pay9 (F := F) (ix2 (⟨(y 0).val - 1032, by have := idx2_lt0 y; omega⟩ : Fin 8) (⟨(y 1).val, idx2_lt1 y⟩ : Fin 1024))

/-! ### The scratch function on its three bands of rows -/

theorem scratchMax_lo (x1 : Vec F S1x1024x1024 .f32) (y : S1040x1024.Idx) (a : Fin 8) (b : Fin 1024)
    (hy0 : (y 0).val = a.val) (hy1 : (y 1).val = b.val) : scratchMax x1 y = k0_pay6 (F := F) (ix2 a b) := by
  have ha := a.isLt
  unfold scratchMax
  rw [dif_pos (by omega)]
  exact congrArg₂ (fun a' b' => k0_pay6 (F := F) (ix2 a' b')) (Fin.ext hy0) (Fin.ext hy1)

theorem scratchMax_hi (x1 : Vec F S1x1024x1024 .f32) (y : S1040x1024.Idx) (a : Fin 8) (b : Fin 1024)
    (hy0 : (y 0).val = 1032 + a.val) (hy1 : (y 1).val = b.val) : scratchMax x1 y = k0_pay7 (F := F) (ix2 a b) := by
  unfold scratchMax
  rw [dif_neg (by omega), dif_neg (by omega)]
  exact congrArg₂ (fun a' b' => k0_pay7 (F := F) (ix2 a' b')) (Fin.ext (show (y 0).val - 1032 = a.val by omega)) (Fin.ext hy1)

theorem scratchMax_chunk (x1 : Vec F S1x1024x1024 .f32) (y : S1040x1024.Idx) (k : Fin k0_t1_loop.trips) (a : Fin 128) (b : Fin 1024)
    (hy0 : (y 0).val = 128 * k.val + 8 + a.val) (hy1 : (y 1).val = b.val) :
    scratchMax x1 y = k0_pay11 (View.ld x1 (R1 k)) (ix2 a b) := by
  have ha := a.isLt
  have hk : k.val < 8 := Nat.lt_of_lt_of_eq k.isLt trips1
  have key : ∀ (k' : Fin k0_t1_loop.trips) (a' : Fin 128) (b' : Fin 1024), k' = k → a' = a → b' = b →
      k0_pay11 (View.ld x1 (R1 k')) (ix2 a' b') = k0_pay11 (View.ld x1 (R1 k)) (ix2 a b) := by
    rintro _ _ _ rfl rfl rfl; rfl
  unfold scratchMax
  rw [dif_neg (by omega), dif_pos (by omega)]
  exact key _ _ _ (Fin.ext (show ((y 0).val - 8) / 128 = k.val by omega))
    (Fin.ext (show ((y 0).val - 8) % 128 = a.val by omega)) (Fin.ext hy1)

theorem scratchMin_lo (x1 : Vec F S1x1024x1024 .f32) (y : S1040x1024.Idx) (a : Fin 8) (b : Fin 1024)
    (hy0 : (y 0).val = a.val) (hy1 : (y 1).val = b.val) : scratchMin x1 y = k0_pay8 (F := F) (ix2 a b) := by
  have ha := a.isLt
  unfold scratchMin
  rw [dif_pos (by omega)]
  exact congrArg₂ (fun a' b' => k0_pay8 (F := F) (ix2 a' b')) (Fin.ext hy0) (Fin.ext hy1)

theorem scratchMin_hi (x1 : Vec F S1x1024x1024 .f32) (y : S1040x1024.Idx) (a : Fin 8) (b : Fin 1024)
    (hy0 : (y 0).val = 1032 + a.val) (hy1 : (y 1).val = b.val) : scratchMin x1 y = k0_pay9 (F := F) (ix2 a b) := by
  unfold scratchMin
  rw [dif_neg (by omega), dif_neg (by omega)]
  exact congrArg₂ (fun a' b' => k0_pay9 (F := F) (ix2 a' b')) (Fin.ext (show (y 0).val - 1032 = a.val by omega)) (Fin.ext hy1)

theorem scratchMin_chunk (x1 : Vec F S1x1024x1024 .f32) (y : S1040x1024.Idx) (k : Fin k0_t1_loop.trips) (a : Fin 128) (b : Fin 1024)
    (hy0 : (y 0).val = 128 * k.val + 8 + a.val) (hy1 : (y 1).val = b.val) :
    scratchMin x1 y = k0_pay12 (View.ld x1 (R1 k)) (ix2 a b) := by
  have ha := a.isLt
  have hk : k.val < 8 := Nat.lt_of_lt_of_eq k.isLt trips1
  have key : ∀ (k' : Fin k0_t1_loop.trips) (a' : Fin 128) (b' : Fin 1024), k' = k → a' = a → b' = b →
      k0_pay12 (View.ld x1 (R1 k')) (ix2 a' b') = k0_pay12 (View.ld x1 (R1 k)) (ix2 a b) := by
    rintro _ _ _ rfl rfl rfl; rfl
  unfold scratchMin
  rw [dif_neg (by omega), dif_pos (by omega)]
  exact key _ _ _ (Fin.ext (show ((y 0).val - 8) / 128 = k.val by omega))
    (Fin.ext (show ((y 0).val - 8) % 128 = a.val by omega)) (Fin.ext hy1)

/-! ### Each piece is a block of the scratch function -/

/-- The first eight scratch rows. -/
abbrev RLo : Rect S1040x1024 := Rect.unit ![0, 0] S8x1024.size inb_S1040x1024_S8x1024_0_0
/-- The last eight scratch rows. -/
abbrev RHi : Rect S1040x1024 := Rect.unit ![1032, 0] S8x1024.size inb_S1040x1024_S8x1024_1032_0

/-- Local row `x 0` of trip `k`'s piece is scratch row `128 k + 8 + x 0`; -/
theorem R2_emb_row (k : Fin k0_t1_loop.trips) (x : (R2 k).shape.Idx) :
    ((R2 k).emb x 0).val = 128 * k.val + 8 + (x 0).val := by
  have h : ((R2 k).emb x 0).val = k0_off2 k 0 + 1 * (x 0).val := rfl
  rw [h, k0_off2_eq]
  show 128 * k.val + 8 + 1 * (x 0).val = _
  omega

/-- its columns are the scratch's. -/
theorem R2_emb_col (k : Fin k0_t1_loop.trips) (x : (R2 k).shape.Idx) : ((R2 k).emb x 1).val = (x 1).val := by
  have h : ((R2 k).emb x 1).val = k0_off2 k 1 + 1 * (x 1).val := rfl
  rw [h, k0_off2_eq]
  show 0 + 1 * (x 1).val = _
  omega

theorem agree_chunkMax (x1 : Vec F S1x1024x1024 .f32) (k : Fin k0_t1_loop.trips) (x : (R2 k).shape.Idx) :
    k0_pay11 (View.ld x1 (R1 k)) x = scratchMax x1 ((R2 k).emb x) := by
  rw [scratchMax_chunk x1 _ k (x 0) (x 1) (R2_emb_row k x) (R2_emb_col k x)]
  exact congrArg _ (eq_ix2 x)

theorem agree_chunkMin (x1 : Vec F S1x1024x1024 .f32) (k : Fin k0_t1_loop.trips) (x : (R2 k).shape.Idx) :
    k0_pay12 (View.ld x1 (R1 k)) x = scratchMin x1 ((R2 k).emb x) := by
  rw [scratchMin_chunk x1 _ k (x 0) (x 1) (R2_emb_row k x) (R2_emb_col k x)]
  exact congrArg _ (eq_ix2 x)

theorem RLo_emb_row (x : (RLo).shape.Idx) : (RLo.emb x 0).val = (x 0).val := by
  show 0 + 1 * (x 0).val = _; omega
theorem RLo_emb_col (x : (RLo).shape.Idx) : (RLo.emb x 1).val = (x 1).val := by
  show 0 + 1 * (x 1).val = _; omega
theorem RHi_emb_row (x : (RHi).shape.Idx) : (RHi.emb x 0).val = 1032 + (x 0).val := by
  show 1032 + 1 * (x 0).val = _; omega
theorem RHi_emb_col (x : (RHi).shape.Idx) : (RHi.emb x 1).val = (x 1).val := by
  show 0 + 1 * (x 1).val = _; omega

theorem agree_loMax (x1 : Vec F S1x1024x1024 .f32) (x : (RLo).shape.Idx) : k0_pay6 (F := F) x = scratchMax x1 (RLo.emb x) := by
  rw [scratchMax_lo x1 _ (x 0) (x 1) (RLo_emb_row x) (RLo_emb_col x)]
  exact congrArg _ (eq_ix2 x)
theorem agree_hiMax (x1 : Vec F S1x1024x1024 .f32) (x : (RHi).shape.Idx) : k0_pay7 (F := F) x = scratchMax x1 (RHi.emb x) := by
  rw [scratchMax_hi x1 _ (x 0) (x 1) (RHi_emb_row x) (RHi_emb_col x)]
  exact congrArg _ (eq_ix2 x)
theorem agree_loMin (x1 : Vec F S1x1024x1024 .f32) (x : (RLo).shape.Idx) : k0_pay8 (F := F) x = scratchMin x1 (RLo.emb x) := by
  rw [scratchMin_lo x1 _ (x 0) (x 1) (RLo_emb_row x) (RLo_emb_col x)]
  exact congrArg _ (eq_ix2 x)
theorem agree_hiMin (x1 : Vec F S1x1024x1024 .f32) (x : (RHi).shape.Idx) : k0_pay9 (F := F) x = scratchMin x1 (RHi.emb x) := by
  rw [scratchMin_hi x1 _ (x 0) (x 1) (RHi_emb_row x) (RHi_emb_col x)]
  exact congrArg _ (eq_ix2 x)

/-! ### The loop's pieces are the eight trips' -/

theorem mem_pbMax (𝒱 : Variants) (c : Dev nD) (bd : Option 𝒱.V) (i : grid0.Coords) (arg1 : Memref sig .tc .vmem S1x1024x1024 .f32) (harg1 : arg1.IsWhole) (arg2 : Memref sig .tc .vmem S1x1024x1024 .f32) (harg2 : arg2.IsWhole) (arg3 : Memref sig .tc .vmem S1x8x128 .f32) (harg3 : arg3.IsWhole) (arg4 : Memref sig .tc .vmem S1040x1024 .f32) (harg4 : arg4.IsWhole) (arg5 : Memref sig .tc .vmem S1040x1024 .f32) (harg5 : arg5.IsWhole) (X_arg2 : BufTy.Contents (Elt F) arg2.view.ty) (p : View.Piece (Elt F) S1040x1024 .f32) :
    p ∈ (pb_k0_t1 (F := F) 𝒱 c bd i arg1 harg1 arg2 harg2 arg3 harg3 arg4 harg4 arg5 harg5 X_arg2 (Scf.trips k0_t1_loop.lb k0_t1_loop.ub k0_t1_loop.st)).1 ↔
      ∃ k : Fin k0_t1_loop.trips, p = ⟨R2 k, k0_pay11 (View.ld (arg2.view.read (Elt F) X_arg2) (R1 k))⟩ := by
  have h := mem_grown (N := k0_t1_loop.trips)
    (fun k => (⟨R2 k, k0_pay11 (View.ld (arg2.view.read (Elt F) X_arg2) (R1 k))⟩ : View.Piece (Elt F) S1040x1024 .f32))
    (fun n => (pb_k0_t1 (F := F) 𝒱 c bd i arg1 harg1 arg2 harg2 arg3 harg3 arg4 harg4 arg5 harg5 X_arg2 n).1) rfl
    (fun k => by
      show (pb_k0_t1 (F := F) 𝒱 c bd i arg1 harg1 arg2 harg2 arg3 harg3 arg4 harg4 arg5 harg5 X_arg2 (k.val + 1)).1 = _
      rw [pb_k0_t1_succ, tripL_eq])
    k0_t1_loop.trips le_rfl p
  exact h.trans ⟨fun ⟨k, _, hp⟩ => ⟨k, hp⟩, fun ⟨k, hp⟩ => ⟨k, k.isLt, hp⟩⟩

theorem mem_pbMin (𝒱 : Variants) (c : Dev nD) (bd : Option 𝒱.V) (i : grid0.Coords) (arg1 : Memref sig .tc .vmem S1x1024x1024 .f32) (harg1 : arg1.IsWhole) (arg2 : Memref sig .tc .vmem S1x1024x1024 .f32) (harg2 : arg2.IsWhole) (arg3 : Memref sig .tc .vmem S1x8x128 .f32) (harg3 : arg3.IsWhole) (arg4 : Memref sig .tc .vmem S1040x1024 .f32) (harg4 : arg4.IsWhole) (arg5 : Memref sig .tc .vmem S1040x1024 .f32) (harg5 : arg5.IsWhole) (X_arg2 : BufTy.Contents (Elt F) arg2.view.ty) (p : View.Piece (Elt F) S1040x1024 .f32) :
    p ∈ (pb_k0_t1 (F := F) 𝒱 c bd i arg1 harg1 arg2 harg2 arg3 harg3 arg4 harg4 arg5 harg5 X_arg2 (Scf.trips k0_t1_loop.lb k0_t1_loop.ub k0_t1_loop.st)).2 ↔
      ∃ k : Fin k0_t1_loop.trips, p = ⟨R2 k, k0_pay12 (View.ld (arg2.view.read (Elt F) X_arg2) (R1 k))⟩ := by
  have h := mem_grown (N := k0_t1_loop.trips)
    (fun k => (⟨R2 k, k0_pay12 (View.ld (arg2.view.read (Elt F) X_arg2) (R1 k))⟩ : View.Piece (Elt F) S1040x1024 .f32))
    (fun n => (pb_k0_t1 (F := F) 𝒱 c bd i arg1 harg1 arg2 harg2 arg3 harg3 arg4 harg4 arg5 harg5 X_arg2 n).2) rfl
    (fun k => by
      show (pb_k0_t1 (F := F) 𝒱 c bd i arg1 harg1 arg2 harg2 arg3 harg3 arg4 harg4 arg5 harg5 X_arg2 (k.val + 1)).2 = _
      rw [pb_k0_t1_succ, tripL_eq])
    k0_t1_loop.trips le_rfl p
  exact h.trans ⟨fun ⟨k, _, hp⟩ => ⟨k, hp⟩, fun ⟨k, hp⟩ => ⟨k, k.isLt, hp⟩⟩

/-! ### Every scratch row is written: the margins and the eight chunks tile the 1040 rows -/

/-- Row `s` of the scratch lies in the low margin, in the chunk `(s - 8) / 128`, or in the high margin. -/
theorem cover_rows (y : S1040x1024.Idx) :
    y ∈ RLo.set ∨ (∃ k : Fin k0_t1_loop.trips, y ∈ (R2 k).set) ∨ y ∈ RHi.set := by
  have hy0 := idx2_lt0 y
  have hy1 := idx2_lt1 y
  by_cases h0 : (y 0).val < 8
  · left
    rw [Rect.mem_set_unit]
    refine Fin.forall_fin_two.mpr ⟨⟨Nat.zero_le _, ?_⟩, ⟨Nat.zero_le _, ?_⟩⟩
    · show (y 0).val < 0 + 8; omega
    · show (y 1).val < 0 + 1024; omega
  · by_cases h1 : (y 0).val < 1032
    · right; left
      obtain ⟨k, hk⟩ : ∃ k : Fin k0_t1_loop.trips, k.val = ((y 0).val - 8) / 128 :=
        ⟨⟨((y 0).val - 8) / 128, Nat.lt_of_lt_of_eq (by omega) trips1.symm⟩, rfl⟩
      refine ⟨k, ?_⟩
      rw [Rect.mem_set_unit, k0_off2_eq]
      refine Fin.forall_fin_two.mpr ⟨⟨?_, ?_⟩, ⟨Nat.zero_le _, ?_⟩⟩
      · show 128 * k.val + 8 ≤ (y 0).val; omega
      · show (y 0).val < 128 * k.val + 8 + 128; omega
      · show (y 1).val < 0 + 1024; omega
    · right; right
      rw [Rect.mem_set_unit]
      refine Fin.forall_fin_two.mpr ⟨⟨?_, ?_⟩, ⟨Nat.zero_le _, ?_⟩⟩
      · show 1032 ≤ (y 0).val; omega
      · show (y 0).val < 1032 + 8; omega
      · show (y 1).val < 0 + 1024; omega

/-! ### What the scratch arrays read after the first loop -/

/-- After the margin fills and the first loop, the first scratch reads `scratchMax` of the targets block at every
    index, whatever it held before and through whichever view. -/
theorem read_piecesMax (𝒱 : Variants) (c : Dev nD) (bd : Option 𝒱.V) (i : grid0.Coords) (arg1 : Memref sig .tc .vmem S1x1024x1024 .f32) (harg1 : arg1.IsWhole) (arg2 : Memref sig .tc .vmem S1x1024x1024 .f32) (harg2 : arg2.IsWhole) (arg3 : Memref sig .tc .vmem S1x8x128 .f32) (harg3 : arg3.IsWhole) (arg4 : Memref sig .tc .vmem S1040x1024 .f32) (harg4 : arg4.IsWhole) (arg5 : Memref sig .tc .vmem S1040x1024 .f32) (harg5 : arg5.IsWhole) (X_arg2 : BufTy.Contents (Elt F) arg2.view.ty)
    (v : View sig .tc .vmem S1040x1024 .f32) (f : v.ty.Contents (Elt F)) (y : S1040x1024.Idx) :
    v.read (Elt F) (v.writes (Elt F) f (piecesMax (F := F) 𝒱 c bd i arg1 harg1 arg2 harg2 arg3 harg3 arg4 harg4 arg5 harg5 X_arg2)) y
      = scratchMax (arg2.view.read (Elt F) X_arg2) y := by
  unfold piecesMax
  refine View.read_writes_apply_of_pieces v f (scratchMax (arg2.view.read (Elt F) X_arg2)) _ ?_ y ?_
  · intro p hp x
    rcases List.mem_append.mp hp with hp | hp
    · obtain ⟨k, rfl⟩ := (mem_pbMax 𝒱 c bd i arg1 harg1 arg2 harg2 arg3 harg3 arg4 harg4 arg5 harg5 X_arg2 p).mp hp
      exact agree_chunkMax _ k x
    · rcases List.mem_cons.mp hp with rfl | hp
      · exact agree_hiMax _ x
      · rcases List.mem_cons.mp hp with rfl | hp
        · exact agree_loMax _ x
        · exact absurd hp List.not_mem_nil
  · rcases cover_rows y with h | ⟨k, h⟩ | h
    · exact ⟨⟨RLo, k0_pay6 (F := F)⟩, List.mem_append_right _ (List.mem_cons_of_mem _ List.mem_cons_self), h⟩
    · exact ⟨⟨R2 k, k0_pay11 (View.ld (arg2.view.read (Elt F) X_arg2) (R1 k))⟩,
        List.mem_append_left _ ((mem_pbMax 𝒱 c bd i arg1 harg1 arg2 harg2 arg3 harg3 arg4 harg4 arg5 harg5 X_arg2 _).mpr ⟨k, rfl⟩), h⟩
    · exact ⟨⟨RHi, k0_pay7 (F := F)⟩, List.mem_append_right _ List.mem_cons_self, h⟩

/-- The same for the second scratch and `scratchMin`. -/
theorem read_piecesMin (𝒱 : Variants) (c : Dev nD) (bd : Option 𝒱.V) (i : grid0.Coords) (arg1 : Memref sig .tc .vmem S1x1024x1024 .f32) (harg1 : arg1.IsWhole) (arg2 : Memref sig .tc .vmem S1x1024x1024 .f32) (harg2 : arg2.IsWhole) (arg3 : Memref sig .tc .vmem S1x8x128 .f32) (harg3 : arg3.IsWhole) (arg4 : Memref sig .tc .vmem S1040x1024 .f32) (harg4 : arg4.IsWhole) (arg5 : Memref sig .tc .vmem S1040x1024 .f32) (harg5 : arg5.IsWhole) (X_arg2 : BufTy.Contents (Elt F) arg2.view.ty)
    (v : View sig .tc .vmem S1040x1024 .f32) (f : v.ty.Contents (Elt F)) (y : S1040x1024.Idx) :
    v.read (Elt F) (v.writes (Elt F) f (piecesMin (F := F) 𝒱 c bd i arg1 harg1 arg2 harg2 arg3 harg3 arg4 harg4 arg5 harg5 X_arg2)) y
      = scratchMin (arg2.view.read (Elt F) X_arg2) y := by
  unfold piecesMin
  refine View.read_writes_apply_of_pieces v f (scratchMin (arg2.view.read (Elt F) X_arg2)) _ ?_ y ?_
  · intro p hp x
    rcases List.mem_append.mp hp with hp | hp
    · obtain ⟨k, rfl⟩ := (mem_pbMin 𝒱 c bd i arg1 harg1 arg2 harg2 arg3 harg3 arg4 harg4 arg5 harg5 X_arg2 p).mp hp
      exact agree_chunkMin _ k x
    · rcases List.mem_cons.mp hp with rfl | hp
      · exact agree_hiMin _ x
      · rcases List.mem_cons.mp hp with rfl | hp
        · exact agree_loMin _ x
        · exact absurd hp List.not_mem_nil
  · rcases cover_rows y with h | ⟨k, h⟩ | h
    · exact ⟨⟨RLo, k0_pay8 (F := F)⟩, List.mem_append_right _ (List.mem_cons_of_mem _ List.mem_cons_self), h⟩
    · exact ⟨⟨R2 k, k0_pay12 (View.ld (arg2.view.read (Elt F) X_arg2) (R1 k))⟩,
        List.mem_append_left _ ((mem_pbMin 𝒱 c bd i arg1 harg1 arg2 harg2 arg3 harg3 arg4 harg4 arg5 harg5 X_arg2 _).mpr ⟨k, rfl⟩), h⟩
    · exact ⟨⟨RHi, k0_pay9 (F := F)⟩, List.mem_append_right _ List.mem_cons_self, h⟩

end Cert.KernelIdeal.Trips
end
-- ==== Proof.Sums.lean ====
/-
  Re-indexing of finite sums in a commutative monoid: a sum over the indices of a rank-3 or rank-4 array as the
  iterated sum over its coordinates, and a sum over 1024 rows as the sum over eight chunks of 128 rows. No law beyond
  commutativity and associativity of addition is used, so the sums may be taken in the extended reals.
-/
import Idealize.ShloMosaic.Lib.ValueIdx
import Mathlib.Algebra.BigOperators.Fin
import Mathlib.Logic.Equiv.Fin.Basic

noncomputable section

namespace Cert.Sums

open Idealize.ShloMosaic Idealize.ShloMosaic.ValueIdx

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A rank-4 index set is the product of its four coordinate ranges. -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

/-- Row `128 * k + j` of chunk `k`. -/
def rowOf (k : Fin 8) (j : Fin 128) : Fin 1024 := ⟨128 * k.val + j.val, by omega⟩

/-- The 1024 rows are the eight chunks of 128 rows. -/
def chunkEquiv : Fin 8 × Fin 128 ≃ Fin 1024 where
  toFun p := rowOf p.1 p.2
  invFun r := (⟨r.val / 128, by omega⟩, ⟨r.val % 128, Nat.mod_lt _ (by norm_num)⟩)
  left_inv p := by
    obtain ⟨k, j⟩ := p
    simp only [rowOf]
    refine Prod.ext (Fin.ext ?_) (Fin.ext ?_)
    · show (128 * k.val + j.val) / 128 = k.val
      omega
    · show (128 * k.val + j.val) % 128 = j.val
      omega
  right_inv r := by
    apply Fin.ext
    show 128 * (r.val / 128) + r.val % 128 = r.val
    omega

theorem sum_rows {M : Type*} [AddCommMonoid M] (f : Fin 1024 → M) :
    ∑ r : Fin 1024, f r = ∑ k : Fin 8, ∑ j : Fin 128, f (rowOf k j) := by
  rw [← Equiv.sum_comp chunkEquiv f, Fintype.sum_prod_type]
  rfl

/-- A sum over an axis of one coordinate is its one term. -/
theorem sum_fin_one {M : Type*} [AddCommMonoid M] (f : Fin 1 → M) : ∑ u : Fin 1, f u = f 0 := by
  simp

/-- A tile that holds `A` in its cell (0, 0) and zero elsewhere sums to `A`. -/
theorem sum_single_cell {M : Type*} [AddCommMonoid M] (A : M) :
    ∑ a : Fin 8, ∑ l : Fin 128, (if a.val = 0 ∧ l.val = 0 then A else 0) = A := by
  rw [Finset.sum_eq_single (0 : Fin 8)]
  · rw [Finset.sum_eq_single (0 : Fin 128)]
    · simp
    · intro l _ hl
      have : l.val ≠ 0 := fun h => hl (Fin.ext h)
      simp [this]
    · intro h; exact absurd (Finset.mem_univ _) h
  · intro a _ ha
    have : a.val ≠ 0 := fun h => ha (Fin.ext h)
    simp [this]
  · intro h; exact absurd (Finset.mem_univ _) h

end Cert.Sums

end
-- ==== Proof.KernelValue.lean ====
/-
  What one grid point of the idealized kernel leaves in its output block, read off the frame run: the block's one
  store writes the accumulator of the second loop into entry (0, 0, 0) and zero elsewhere; the accumulator is the
  fold of the eight trips' yields over the two scratch buffers as the first loop left them.
-/
import proofs.«410240_j29961691857675_3_alg».proof.Proof.KernelIdealFrame
import Idealize.ShloMosaic.Lib.Pipeline.Value
import Idealize.ShloMosaic.Lib.ValueIdx
import proofs.«410240_j29961691857675_3_alg».proof.Proof.Trips
import proofs.«410240_j29961691857675_3_alg».proof.Proof.Sums

set_option maxRecDepth 16384

noncomputable section

namespace Cert.KernelIdeal.KValue

open Cert.KernelIdeal Cert.KernelIdeal.Gen Cert.KernelIdeal.GenP
open Idealize.ShloMosaic Idealize.ShloMosaic.TcCoe Idealize.SL.Sem

/-- The first scratch buffer after the first loop: rows 0..7 and 1032..1039 hold the neutral element of the
    maximum, row 8 + r the row-wise window maximum of the targets' row r. -/
abbrev sMax (c : Dev nD) (i : grid0.Coords) (arg1 : Memref sig .tc .vmem S1x1024x1024 .f32) (harg1 : arg1.IsWhole) (arg2 : Memref sig .tc .vmem S1x1024x1024 .f32) (harg2 : arg2.IsWhole) (arg3 : Memref sig .tc .vmem S1x8x128 .f32) (harg3 : arg3.IsWhole) (arg4 : Memref sig .tc .vmem S1040x1024 .f32) (harg4 : arg4.IsWhole) (arg5 : Memref sig .tc .vmem S1040x1024 .f32) (harg5 : arg5.IsWhole) (x1 : Vec Ideal S1x1024x1024 .f32) : S1040x1024.Idx → Elt Ideal .f32 :=
  View.read (Elt Ideal) arg4.view (arg4.view.writes (Elt Ideal) arg4.view.junk (piecesMax c i arg1 harg1 arg2 harg2 arg3 harg3 arg4 harg4 arg5 harg5 x1))

/-- The second scratch buffer after the first loop, likewise for the minimum. -/
abbrev sMin (c : Dev nD) (i : grid0.Coords) (arg1 : Memref sig .tc .vmem S1x1024x1024 .f32) (harg1 : arg1.IsWhole) (arg2 : Memref sig .tc .vmem S1x1024x1024 .f32) (harg2 : arg2.IsWhole) (arg3 : Memref sig .tc .vmem S1x8x128 .f32) (harg3 : arg3.IsWhole) (arg4 : Memref sig .tc .vmem S1040x1024 .f32) (harg4 : arg4.IsWhole) (arg5 : Memref sig .tc .vmem S1040x1024 .f32) (harg5 : arg5.IsWhole) (x1 : Vec Ideal S1x1024x1024 .f32) : S1040x1024.Idx → Elt Ideal .f32 :=
  View.read (Elt Ideal) arg5.view (arg5.view.writes (Elt Ideal) arg5.view.junk (piecesMin c i arg1 harg1 arg2 harg2 arg3 harg3 arg4 harg4 arg5 harg5 x1))

/-- The carried sum before trip `n` of the second loop. -/
def accAt (c : Dev nD) (i : grid0.Coords) (arg1 : Memref sig .tc .vmem S1x1024x1024 .f32) (harg1 : arg1.IsWhole) (arg2 : Memref sig .tc .vmem S1x1024x1024 .f32) (harg2 : arg2.IsWhole) (arg3 : Memref sig .tc .vmem S1x8x128 .f32) (harg3 : arg3.IsWhole) (arg4 : Memref sig .tc .vmem S1040x1024 .f32) (harg4 : arg4.IsWhole) (arg5 : Memref sig .tc .vmem S1040x1024 .f32) (harg5 : arg5.IsWhole) (x0 x1 : Vec Ideal S1x1024x1024 .f32) (n : ℕ) : FVec Ideal S1x1 .f32 :=
  st_k0_t2 (F := Ideal) Variants.none c none i arg1 harg1 arg2 harg2 arg3 harg3 arg4 harg4 arg5 harg5 (harg1.unread x0) (harg2.unread x1)
    (harg4.unread (sMax c i arg1 harg1 arg2 harg2 arg3 harg3 arg4 harg4 arg5 harg5 x1)) (harg5.unread (sMin c i arg1 harg1 arg2 harg2 arg3 harg3 arg4 harg4 arg5 harg5 x1)) k0_pay13 n

/-- The output block after the body: the one covering store's payload over the sum of all eight trips. -/
theorem out_eq (c : Dev nD) (i : grid0.Coords) (arg1 : Memref sig .tc .vmem S1x1024x1024 .f32) (harg1 : arg1.IsWhole) (arg2 : Memref sig .tc .vmem S1x1024x1024 .f32) (harg2 : arg2.IsWhole) (arg3 : Memref sig .tc .vmem S1x8x128 .f32) (harg3 : arg3.IsWhole) (arg4 : Memref sig .tc .vmem S1040x1024 .f32) (harg4 : arg4.IsWhole) (arg5 : Memref sig .tc .vmem S1040x1024 .f32) (harg5 : arg5.IsWhole) (x0 x1 : Vec Ideal S1x1024x1024 .f32) :
    GenP.out0_A_2 (F := Ideal) c i arg1 harg1 arg2 harg2 arg3 harg3 arg4 harg4 arg5 harg5 x0 x1 = k0_pay1 k0_pay15 (k0_pay16 (accAt c i arg1 harg1 arg2 harg2 arg3 harg3 arg4 harg4 arg5 harg5 x0 x1 8)) k0_pay17 := by
  unfold GenP.out0_A_2
  rw [View.read_writes_eq_canon _ _ _ (GenP.cover0_A_2 c i arg1 harg1 arg2 harg2 arg3 harg3 arg4 harg4 arg5 harg5 x0 x1)]
  unfold GenP.kernelRun0_A
  dsimp only
  exact View.canon_unit_zero (S := S1x8x128) (by funext a; fin_cases a <;> rfl) _ _

/-! ## The trips of the second loop -/

open Idealize.ShloMosaic.ValueIdx

theorem trips2 : k0_t2_loop.trips = 8 := by decide

/-- Trip `k` of eight as a trip of the second loop. -/
abbrev kk (k : Fin 8) : Fin k0_t2_loop.trips := ⟨k.val, by rw [trips2]; exact k.isLt⟩

/-- The carried sum after trip `k` is the trip's yield on the carried sum before it. -/
theorem accAt_succ (c : Dev nD) (i : grid0.Coords) (arg1 : Memref sig .tc .vmem S1x1024x1024 .f32) (harg1 : arg1.IsWhole) (arg2 : Memref sig .tc .vmem S1x1024x1024 .f32) (harg2 : arg2.IsWhole) (arg3 : Memref sig .tc .vmem S1x8x128 .f32) (harg3 : arg3.IsWhole) (arg4 : Memref sig .tc .vmem S1040x1024 .f32) (harg4 : arg4.IsWhole) (arg5 : Memref sig .tc .vmem S1040x1024 .f32) (harg5 : arg5.IsWhole) (x0 x1 : Vec Ideal S1x1024x1024 .f32) (k : Fin 8) :
    accAt c i arg1 harg1 arg2 harg2 arg3 harg3 arg4 harg4 arg5 harg5 x0 x1 (k.val + 1)
      = tripR_k0_t2 (F := Ideal) Variants.none c none i arg1 harg1 arg2 harg2 arg3 harg3 arg4 harg4 arg5 harg5 (harg1.unread x0) (harg2.unread x1)
          (harg4.unread (sMax c i arg1 harg1 arg2 harg2 arg3 harg3 arg4 harg4 arg5 harg5 x1)) (harg5.unread (sMin c i arg1 harg1 arg2 harg2 arg3 harg3 arg4 harg4 arg5 harg5 x1)) (kk k) (accAt c i arg1 harg1 arg2 harg2 arg3 harg3 arg4 harg4 arg5 harg5 x0 x1 k.val) := by
  unfold accAt
  exact st_k0_t2_succ (F := Ideal) Variants.none c none i arg1 harg1 arg2 harg2 arg3 harg3 arg4 harg4 arg5 harg5 (harg1.unread x0) (harg2.unread x1)
    (harg4.unread (sMax c i arg1 harg1 arg2 harg2 arg3 harg3 arg4 harg4 arg5 harg5 x1)) (harg5.unread (sMin c i arg1 harg1 arg2 harg2 arg3 harg3 arg4 harg4 arg5 harg5 x1)) k0_pay13 (kk k)

/-- The chunk of rows trip `k` loads from an image block: local row `j` is the block's row `128 k + j`. -/
theorem ld_R4 (x : Vec Ideal S1x1024x1024 .f32) (k : Fin 8) (j : Fin 128) (q : Fin 1024) :
    View.ld x (Trips.R4 (kk k)) (ix3 0 j q) = x (ix3 0 (Sums.rowOf k j) q) := by
  show x _ = x _
  congr 1
  funext a
  apply Fin.ext
  match a with
  | ⟨0, _⟩ => show k0_off4 (kk k) 0 + 1 * 0 = 0; rw [k0_off4_eq]; rfl
  | ⟨1, _⟩ => show k0_off4 (kk k) 1 + 1 * j.val = 128 * k.val + j.val; rw [k0_off4_eq]; simp
  | ⟨2, _⟩ => show k0_off4 (kk k) 2 + 1 * q.val = q.val; rw [k0_off4_eq]; simp

/-- The 144 scratch rows trip `k` loads: local row `p` is the scratch's row `128 k + p`. -/
theorem ld_R3 (S : S1040x1024.Idx → Elt Ideal .f32) (k : Fin 8) (p : Fin 144) (q : Fin 1024) :
    View.ld S (Trips.R3 (kk k)) (ix2 p q) = S (ix2 (⟨128 * k.val + p.val, by omega⟩ : Fin 1040) q) := by
  show S _ = S _
  congr 1
  funext a
  apply Fin.ext
  match a with
  | ⟨0, _⟩ => show k0_off3 (kk k) 0 + 1 * p.val = 128 * k.val + p.val; rw [k0_off3_eq]; simp
  | ⟨1, _⟩ => show k0_off3 (kk k) 1 + 1 * q.val = q.val; rw [k0_off3_eq]; simp

/-- One image block of the targets as a function of a row and a column (zero outside the image). -/
def imgK (x1 : Vec Ideal S1x1024x1024 .f32) : ℕ → ℕ → EReal :=
  fun r q => if h : r < 1024 ∧ q < 1024 then x1 (ix3 0 ⟨r, h.1⟩ ⟨q, h.2⟩) else 0

/-- A scratch as a function of a row and a column (zero outside it). -/
def scrN (S : S1040x1024.Idx → Elt Ideal .f32) : ℕ → ℕ → EReal :=
  fun s q => if h : s < 1040 ∧ q < 1024 then S (ix2 ⟨s, h.1⟩ ⟨q, h.2⟩) else 0

end Cert.KernelIdeal.KValue

end
-- ==== Proof.PayMath.lean ====
/-
  The arithmetic of the kernel's payloads at the extended reals: each payload read at one index.

  The kernel takes a window-of-nine maximum (and minimum) along one axis by doubling:
  d1[q] = op (p[q], p[q+1]), d2[q] = op (d1[q], d1[q+2]), d3[q] = op (d2[q], d2[q+4]) and the
  result is op (d3[q], p[q+8]), over an array padded by four neutral entries on either side.
  An upper bound of the result is an upper bound of the nine entries p[q] .. p[q+8] (dually a
  lower bound for the minimum); nothing is ever evaluated, every maximum is carried by
  `max_le_iff` and every minimum by `le_min_iff`.
-/
import proofs.«410240_j29961691857675_3_alg».proof.Proof.Gen.KernelIdeal.Skeleton
import proofs.«410240_j29961691857675_3_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.PayMath

open Cert.KernelIdeal Cert.KernelIdeal.Gen Idealize.ShloMosaic ValueIdx

/-! ## The output tile: the accumulated sum in cell (0, 0), zero elsewhere -/

/-- A 32-bit word of a number below 2^32 is the zero word exactly when the number is zero. -/
theorem ofNat32_eq_zero_iff (n : Nat) (hn : n < 4294967296) : (BitVec.ofNat 32 n == 0#32) = decide (n = 0) := by
  by_cases h : n = 0
  · subst h; rfl
  · have : BitVec.ofNat 32 n ≠ 0#32 := by
      intro e
      have := congrArg BitVec.toNat e
      simp at this
      omega
    simp [this, h]

/-- The mask of the output tile: the bit 1 at (0, 0), the bit 0 elsewhere. -/
theorem pay15_apply (a : Fin 8) (l : Fin 128) :
    k0_pay15 (ix2 a l) = if a.val = 0 ∧ l.val = 0 then 1#1 else 0#1 := by
  unfold k0_pay15
  show IntOp.andi (IntOp.cmpi .eq (iota .tc S8x128 32 [0] iota_S8x128_d0_w32 (ix2 a l)) 0#32)
      (IntOp.cmpi .eq (iota .tc S8x128 32 [1] iota_S8x128_d1_w32 (ix2 a l)) 0#32) = _
  rw [iota_single_apply, iota_single_apply]
  show IntOp.andi (IntOp.cmpi .eq (BitVec.ofNat 32 a.val) 0#32) (IntOp.cmpi .eq (BitVec.ofNat 32 l.val) 0#32) = _
  unfold IntOp.andi IntOp.cmpi
  simp only []
  rw [ofNat32_eq_zero_iff _ (by omega), ofNat32_eq_zero_iff _ (by omega)]
  by_cases ha : a.val = 0 <;> by_cases hl : l.val = 0 <;> simp [ha, hl]

/-- The stored tile at (0, a, l) is the loop's result at its one cell when a = 0 and l = 0, and the zero word otherwise. -/
theorem out_block (v19 : FVec Ideal S1x1 .f32) (a : Fin 8) (l : Fin 128) :
    k0_pay1 (F := Ideal) k0_pay15 (k0_pay16 v19) k0_pay17 (ix3 0 a l)
      = if a.val = 0 ∧ l.val = 0 then v19 (ix2 0 0) else Cert.Spec.ZERO := by
  unfold k0_pay1
  refine (shapeCast_ab_1ab_apply _ _ (0 : Fin 1) a l).trans ?_
  rw [select_apply, pay15_apply]
  have h16 : k0_pay16 v19 (ix2 a l) = v19 (ix2 0 0) := by
    unfold k0_pay16
    show v19 _ = v19 _
    congr 1
    funext d
    match d with
    | ⟨0, _⟩ => rfl
    | ⟨1, _⟩ => rfl
  have h17 : (k0_pay17 (F := Ideal)) (ix2 a l) = Cert.Spec.ZERO := rfl
  rw [h16, h17]
  by_cases h : a.val = 0 ∧ l.val = 0
  · rw [if_pos h, if_pos h, select_one]
  · rw [if_neg h, if_neg h, select_zero]

/-! ## A window of nine by doubling, over a sequence -/

/-- An upper bound of the doubling arrangement's result at position q is an upper bound of the nine entries from q on. -/
theorem win9_max_le_iff (p : ℕ → EReal) (q : ℕ) (e : EReal) :
    max (max (max (max (p q) (p (q + 1))) (max (p (q + 2)) (p (q + 2 + 1))))
          (max (max (p (q + 4)) (p (q + 4 + 1))) (max (p (q + 4 + 2)) (p (q + 4 + 2 + 1))))) (p (q + 8)) ≤ e
      ↔ ∀ d < 9, p (q + d) ≤ e := by
  simp only [max_le_iff]
  constructor
  · rintro ⟨⟨⟨⟨h0, h1⟩, h2, h3⟩, ⟨h4, h5⟩, h6, h7⟩, h8⟩ d hd
    interval_cases d
    · exact h0
    · exact h1
    · exact h2
    · exact h3
    · exact h4
    · exact h5
    · exact h6
    · exact h7
    · exact h8
  · intro h
    exact ⟨⟨⟨⟨h 0 (by omega), h 1 (by omega)⟩, h 2 (by omega), h 3 (by omega)⟩,
      ⟨h 4 (by omega), h 5 (by omega)⟩, h 6 (by omega), h 7 (by omega)⟩, h 8 (by omega)⟩

/-- Dually, a lower bound of the result with minima is a lower bound of the nine entries from q on. -/
theorem le_win9_min_iff (p : ℕ → EReal) (q : ℕ) (e : EReal) :
    e ≤ min (min (min (min (p q) (p (q + 1))) (min (p (q + 2)) (p (q + 2 + 1))))
          (min (min (p (q + 4)) (p (q + 4 + 1))) (min (p (q + 4 + 2)) (p (q + 4 + 2 + 1))))) (p (q + 8))
      ↔ ∀ d < 9, e ≤ p (q + d) := by
  simp only [le_min_iff]
  constructor
  · rintro ⟨⟨⟨⟨h0, h1⟩, h2, h3⟩, ⟨h4, h5⟩, h6, h7⟩, h8⟩ d hd
    interval_cases d
    · exact h0
    · exact h1
    · exact h2
    · exact h3
    · exact h4
    · exact h5
    · exact h6
    · exact h7
    · exact h8
  · intro h
    exact ⟨⟨⟨⟨h 0 (by omega), h 1 (by omega)⟩, h 2 (by omega), h 3 (by omega)⟩,
      ⟨h 4 (by omega), h 5 (by omega)⟩, h 6 (by omega), h 7 (by omega)⟩, h 8 (by omega)⟩

/-! ## One doubling step read at an index -/

section Doubling
variable {φ : FTy}

/-- One doubling step along the columns: the operation of a vector with itself shifted by o columns, read at (a, q),
    is the operation of the entries at columns q and q + o. -/
theorem dbl_axis1 {n0 n m : ℕ} (op : EReal → EReal → EReal)
    (f : FVec Ideal ⟨2, ![n0, m]⟩ φ → FVec Ideal ⟨2, ![n0, m]⟩ φ → FVec Ideal ⟨2, ![n0, m]⟩ φ)
    (hf : ∀ A B i, f A B i = op (A i) (B i)) (o : ℕ) (X : FVec Ideal ⟨2, ![n0, n]⟩ φ)
    (h0 : (⟨2, ![n0, n]⟩ : Shape).Slices ![0, 0] ⟨2, ![n0, m]⟩) (h1 : (⟨2, ![n0, n]⟩ : Shape).Slices ![0, o] ⟨2, ![n0, m]⟩)
    (a : Fin n0) (q : Fin m) (k0 k1 : Fin n) (hk0 : k0.val = q.val) (hk1 : k1.val = q.val + o) :
    f (extractStridedSlice ⟨2, ![n0, m]⟩ ![0, 0] X h0) (extractStridedSlice ⟨2, ![n0, m]⟩ ![0, o] X h1) (ix2 a q)
      = op (X (ix2 a k0)) (X (ix2 a k1)) := by
  rw [hf, slice2_axis1_apply 0 X h0 a q k0 (by omega), slice2_axis1_apply o X h1 a q k1 (by omega)]

/-- The same step along the rows. -/
theorem dbl_axis0 {n n1 m : ℕ} (op : EReal → EReal → EReal)
    (f : FVec Ideal ⟨2, ![m, n1]⟩ φ → FVec Ideal ⟨2, ![m, n1]⟩ φ → FVec Ideal ⟨2, ![m, n1]⟩ φ)
    (hf : ∀ A B i, f A B i = op (A i) (B i)) (o : ℕ) (X : FVec Ideal ⟨2, ![n, n1]⟩ φ)
    (h0 : (⟨2, ![n, n1]⟩ : Shape).Slices ![0, 0] ⟨2, ![m, n1]⟩) (h1 : (⟨2, ![n, n1]⟩ : Shape).Slices ![o, 0] ⟨2, ![m, n1]⟩)
    (q : Fin m) (c : Fin n1) (k0 k1 : Fin n) (hk0 : k0.val = q.val) (hk1 : k1.val = q.val + o) :
    f (extractStridedSlice ⟨2, ![m, n1]⟩ ![0, 0] X h0) (extractStridedSlice ⟨2, ![m, n1]⟩ ![o, 0] X h1) (ix2 q c)
      = op (X (ix2 k0 c)) (X (ix2 k1 c)) := by
  rw [hf, slice2_axis0_apply 0 X h0 q c k0 (by omega), slice2_axis0_apply o X h1 q c k1 (by omega)]

end Doubling

/-! ## The row pass: four doubling steps along the columns of a padded block -/

section RowPass
variable (f : (s : Shape) → FVec Ideal s .f32 → FVec Ideal s .f32 → FVec Ideal s .f32) (op : EReal → EReal → EReal)

/-- Row j of a 128 x 1032 block as a sequence (zero past the end). -/
def rowNat (X : FVec Ideal S128x1032 .f32) (j : Fin 128) : ℕ → EReal :=
  fun q => if h : q < 1032 then X (ix2 j ⟨q, h⟩) else 0

theorem rowNat_eq (X : FVec Ideal S128x1032 .f32) (j : Fin 128) (q : ℕ) (h : q < 1032) : X (ix2 j ⟨q, h⟩) = rowNat X j q :=
  by unfold rowNat; rw [dif_pos h]

def rowD1 (X : FVec Ideal S128x1032 .f32) : FVec Ideal S128x1031 .f32 :=
  f _ (extractStridedSlice S128x1031 ![0, 0] X slices_S128x1032_o0_0_S128x1031)
    (extractStridedSlice S128x1031 ![0, 1] X slices_S128x1032_o0_1_S128x1031)
def rowD2 (X : FVec Ideal S128x1032 .f32) : FVec Ideal S128x1029 .f32 :=
  f _ (extractStridedSlice S128x1029 ![0, 0] (rowD1 f X) slices_S128x1031_o0_0_S128x1029)
    (extractStridedSlice S128x1029 ![0, 2] (rowD1 f X) slices_S128x1031_o0_2_S128x1029)
def rowD3 (X : FVec Ideal S128x1032 .f32) : FVec Ideal S128x1025 .f32 :=
  f _ (extractStridedSlice S128x1025 ![0, 0] (rowD2 f X) slices_S128x1029_o0_0_S128x1025)
    (extractStridedSlice S128x1025 ![0, 4] (rowD2 f X) slices_S128x1029_o0_4_S128x1025)
def rowD4 (X : FVec Ideal S128x1032 .f32) : FVec Ideal S128x1024 .f32 :=
  f _ (extractStridedSlice S128x1024 ![0, 0] (rowD3 f X) slices_S128x1025_o0_0_S128x1024)
    (extractStridedSlice S128x1024 ![0, 8] X slices_S128x1032_o0_8_S128x1024)

variable {f op} (hf : ∀ (s : Shape) (A B : FVec Ideal s .f32) (i : s.Idx), f s A B i = op (A i) (B i))
include hf

theorem rowD1_apply (X : FVec Ideal S128x1032 .f32) (j : Fin 128) (q : ℕ) (hq : q < 1031) :
    rowD1 f X (ix2 j ⟨q, hq⟩) = op (rowNat X j q) (rowNat X j (q + 1)) := by
  rw [← rowNat_eq X j q (by omega), ← rowNat_eq X j (q + 1) (by omega)]
  exact dbl_axis1 op (f _) (hf _) 1 X _ _ j ⟨q, hq⟩ _ _ rfl rfl

theorem rowD2_apply (X : FVec Ideal S128x1032 .f32) (j : Fin 128) (q : ℕ) (hq : q < 1029) :
    rowD2 f X (ix2 j ⟨q, hq⟩)
      = op (op (rowNat X j q) (rowNat X j (q + 1))) (op (rowNat X j (q + 2)) (rowNat X j (q + 2 + 1))) := by
  rw [← rowD1_apply hf X j q (by omega), ← rowD1_apply hf X j (q + 2) (by omega)]
  exact dbl_axis1 op (f _) (hf _) 2 (rowD1 f X) _ _ j ⟨q, hq⟩ _ _ rfl rfl

theorem rowD3_apply (X : FVec Ideal S128x1032 .f32) (j : Fin 128) (q : ℕ) (hq : q < 1025) :
    rowD3 f X (ix2 j ⟨q, hq⟩)
      = op (op (op (rowNat X j q) (rowNat X j (q + 1))) (op (rowNat X j (q + 2)) (rowNat X j (q + 2 + 1))))
          (op (op (rowNat X j (q + 4)) (rowNat X j (q + 4 + 1))) (op (rowNat X j (q + 4 + 2)) (rowNat X j (q + 4 + 2 + 1)))) := by
  rw [← rowD2_apply hf X j q (by omega), ← rowD2_apply hf X j (q + 4) (by omega)]
  exact dbl_axis1 op (f _) (hf _) 4 (rowD2 f X) _ _ j ⟨q, hq⟩ _ _ rfl rfl

theorem rowD4_apply (X : FVec Ideal S128x1032 .f32) (j : Fin 128) (q : ℕ) (hq : q < 1024) :
    rowD4 f X (ix2 j ⟨q, hq⟩)
      = op (op (op (op (rowNat X j q) (rowNat X j (q + 1))) (op (rowNat X j (q + 2)) (rowNat X j (q + 2 + 1))))
          (op (op (rowNat X j (q + 4)) (rowNat X j (q + 4 + 1))) (op (rowNat X j (q + 4 + 2)) (rowNat X j (q + 4 + 2 + 1)))))
          (rowNat X j (q + 8)) := by
  rw [← rowD3_apply hf X j q (by omega), ← rowNat_eq X j (q + 8) (by omega)]
  unfold rowD4
  rw [hf, slice2_axis1_apply 0 (rowD3 f X) _ j ⟨q, hq⟩ ⟨q, by omega⟩ (by simp),
    slice2_axis1_apply 8 X _ j ⟨q, hq⟩ ⟨q + 8, by omega⟩ (by simp; omega)]

end RowPass

/-! ## The padded block: four neutral columns, the row block, four neutral columns -/

/-- Row j of a 1 x 128 x 1024 block as a sequence (zero past the end). -/
def rowOf (v : Vec Ideal S1x128x1024 .f32) (j : Fin 128) : ℕ → EReal :=
  fun q => if h : q < 1024 then v (ix3 0 j ⟨q, h⟩) else 0

/-- Column c of a 144 x 1024 block as a sequence (zero past the end). -/
def colOf (v : Vec Ideal S144x1024 .f32) (c : Fin 1024) : ℕ → EReal :=
  fun q => if h : q < 144 then v (ix2 ⟨q, h⟩ c) else 0

/-- Three blocks of 4, 1024 and 4 columns laid side by side, read at column q: the block that holds q, at q less the
    columns before it. -/
theorem cat3_apply (A C : FVec Ideal S128x4 .f32) (B : FVec Ideal S128x1024 .f32) (j : Fin 128) (q : ℕ) (hq : q < 1032) :
    concatenate S128x1032 1 [⟨S128x4, A⟩, ⟨S128x1024, B⟩, ⟨S128x4, C⟩] concatenates_S128x4_S128x1024_S128x4_S128x1032_d1
        (ix2 j ⟨q, hq⟩)
      = if h1 : q < 4 then A (ix2 j ⟨q, h1⟩)
        else if h2 : q < 1028 then B (ix2 j ⟨q - 4, by omega⟩) else C (ix2 j ⟨q - 1028, by omega⟩) := by
  by_cases h1 : q < 4
  · rw [dif_pos h1]
    exact concatenate_apply_piece (t := S128x1032) 1 [⟨S128x4, A⟩, ⟨S128x1024, B⟩, ⟨S128x4, C⟩]
      concatenates_S128x4_S128x1024_S128x4_S128x1032_d1 (ix2 j ⟨q, hq⟩) 0 (by simp) S128x4 A rfl rfl 0 rfl (ix2 j ⟨q, h1⟩)
      (fun b hb => by
        match b with
        | ⟨0, _⟩ => rfl
        | ⟨1, _⟩ => exact absurd rfl hb)
      (by show 0 + q = q; omega)
  · rw [dif_neg h1]
    by_cases h2 : q < 1028
    · rw [dif_pos h2]
      exact concatenate_apply_piece (t := S128x1032) 1 [⟨S128x4, A⟩, ⟨S128x1024, B⟩, ⟨S128x4, C⟩]
        concatenates_S128x4_S128x1024_S128x4_S128x1032_d1 (ix2 j ⟨q, hq⟩) 1 (by simp) S128x1024 B rfl rfl 4 rfl
        (ix2 j ⟨q - 4, by omega⟩)
        (fun b hb => by
          match b with
          | ⟨0, _⟩ => rfl
          | ⟨1, _⟩ => exact absurd rfl hb)
        (by show 4 + (q - 4) = q; omega)
    · rw [dif_neg h2]
      exact concatenate_apply_piece (t := S128x1032) 1 [⟨S128x4, A⟩, ⟨S128x1024, B⟩, ⟨S128x4, C⟩]
        concatenates_S128x4_S128x1024_S128x4_S128x1032_d1 (ix2 j ⟨q, hq⟩) 2 (by simp) S128x4 C rfl rfl 1028 rfl
        (ix2 j ⟨q - 1028, by omega⟩)
        (fun b hb => by
          match b with
          | ⟨0, _⟩ => rfl
          | ⟨1, _⟩ => exact absurd rfl hb)
        (by show 1028 + (q - 1028) = q; omega)

/-- The block between two bands of four columns that hold the word w. -/
def padWith (w : BitVec 32) (v : Vec Ideal S1x128x1024 .f32) : FVec Ideal S128x1032 .f32 :=
  concatenate S128x1032 1
    [⟨S128x4, broadcast S128x4 (Scalar.ofBits (F := Ideal) .f32 w)⟩, ⟨S128x1024, k0_pay10 v⟩,
      ⟨S128x4, broadcast S128x4 (Scalar.ofBits (F := Ideal) .f32 w)⟩]
    concatenates_S128x4_S128x1024_S128x4_S128x1032_d1

/-- Column q of the padded block: the word's value in the two bands, the block's column q - 4 between them. -/
theorem padWith_row (w : BitVec 32) (v : Vec Ideal S1x128x1024 .f32) (j : Fin 128) (q : ℕ) (hq : q < 1032) :
    rowNat (padWith w v) j q = if 4 ≤ q ∧ q < 1028 then rowOf v j (q - 4) else Ideal.ofBits .f32 w := by
  rw [← rowNat_eq _ j q hq]
  unfold padWith
  rw [cat3_apply]
  by_cases h1 : q < 4
  · rw [dif_pos h1, if_neg (by omega)]; rfl
  · rw [dif_neg h1]
    by_cases h2 : q < 1028
    · rw [dif_pos h2, if_pos ⟨by omega, h2⟩]
      unfold k0_pay10
      rw [shapeCast_1ab_ab_apply]
      unfold rowOf
      rw [dif_pos (by omega)]
    · rw [dif_neg h2, if_neg (by omega)]; rfl

theorem ofBits_neg_inf : Ideal.ofBits .f32 0xFF800000#32 = ⊥ := by simp [Ideal.ofBits, Ideal.ieee]
theorem ofBits_pos_inf : Ideal.ofBits .f32 0x7F800000#32 = ⊤ := by simp [Ideal.ofBits, Ideal.ieee]

/-! ## The two row-pass payloads -/

theorem pay11_eq (v : Vec Ideal S1x128x1024 .f32) :
    k0_pay11 (F := Ideal) v
      = shapeCast S128x1024 (rowD4 (fun _ A B => maximumf A B) (padWith 0xFF800000#32 v)) shapeCasts_S128x1024_S128x1024 := rfl

theorem pay12_eq (v : Vec Ideal S1x128x1024 .f32) :
    k0_pay12 (F := Ideal) v
      = shapeCast S128x1024 (rowD4 (fun _ A B => minimumf A B) (padWith 0x7F800000#32 v)) shapeCasts_S128x1024_S128x1024 := rfl

/-- (P1) An upper bound of the row pass's maximum at (j, c) is an upper bound of the in-range entries of row j
    in the window of nine centred at c. -/
theorem pay11_le_iff (v : Vec Ideal S1x128x1024 .f32) (j : Fin 128) (c : Fin 1024) (e : EReal) :
    k0_pay11 (F := Ideal) v (ix2 j c) ≤ e ↔ ∀ d < 9, Cert.Spec.InWin c.val d → rowOf v j (c.val + d - 4) ≤ e := by
  have hc := c.isLt
  rw [pay11_eq, shapeCast_self,
    show rowD4 (fun _ A B => maximumf A B) (padWith 0xFF800000#32 v) (ix2 j c) = _ from
      rowD4_apply (op := max) (fun _ _ _ _ => rfl) _ j c.val hc,
    win9_max_le_iff]
  refine forall_congr' fun d => forall_congr' fun hd => ?_
  rw [padWith_row _ v j (c.val + d) (by omega), ofBits_neg_inf]
  show _ ↔ (4 ≤ c.val + d ∧ c.val + d < 1028 → _)
  by_cases h : 4 ≤ c.val + d ∧ c.val + d < 1028
  · rw [if_pos h]; exact ⟨fun H _ => H, fun H => H h⟩
  · rw [if_neg h]; exact ⟨fun _ hh => absurd hh h, fun _ => bot_le⟩

/-- (P2) A lower bound of the row pass's minimum at (j, c) is a lower bound of the same entries. -/
theorem le_pay12_iff (v : Vec Ideal S1x128x1024 .f32) (j : Fin 128) (c : Fin 1024) (e : EReal) :
    e ≤ k0_pay12 (F := Ideal) v (ix2 j c) ↔ ∀ d < 9, Cert.Spec.InWin c.val d → e ≤ rowOf v j (c.val + d - 4) := by
  have hc := c.isLt
  rw [pay12_eq, shapeCast_self,
    show rowD4 (fun _ A B => minimumf A B) (padWith 0x7F800000#32 v) (ix2 j c) = _ from
      rowD4_apply (op := min) (fun _ _ _ _ => rfl) _ j c.val hc,
    le_win9_min_iff]
  refine forall_congr' fun d => forall_congr' fun hd => ?_
  rw [padWith_row _ v j (c.val + d) (by omega), ofBits_pos_inf]
  show _ ↔ (4 ≤ c.val + d ∧ c.val + d < 1028 → _)
  by_cases h : 4 ≤ c.val + d ∧ c.val + d < 1028
  · rw [if_pos h]; exact ⟨fun H _ => H, fun H => H h⟩
  · rw [if_neg h]; exact ⟨fun _ hh => absurd hh h, fun _ => le_top⟩

/-! ## The column pass: four doubling steps along the rows of a 136-row slab -/

section ColPass
variable (f : (s : Shape) → FVec Ideal s .f32 → FVec Ideal s .f32 → FVec Ideal s .f32) (op : EReal → EReal → EReal)

/-- Column c of a 136 x 1024 slab as a sequence (zero past the end). -/
def colNat (X : FVec Ideal S136x1024 .f32) (c : Fin 1024) : ℕ → EReal :=
  fun q => if h : q < 136 then X (ix2 ⟨q, h⟩ c) else 0

theorem colNat_eq (X : FVec Ideal S136x1024 .f32) (c : Fin 1024) (q : ℕ) (h : q < 136) : X (ix2 ⟨q, h⟩ c) = colNat X c q := by
  unfold colNat; rw [dif_pos h]

def colD1 (X : FVec Ideal S136x1024 .f32) : FVec Ideal S135x1024 .f32 :=
  f _ (extractStridedSlice S135x1024 ![0, 0] X slices_S136x1024_o0_0_S135x1024)
    (extractStridedSlice S135x1024 ![1, 0] X slices_S136x1024_o1_0_S135x1024)
def colD2 (X : FVec Ideal S136x1024 .f32) : FVec Ideal S133x1024 .f32 :=
  f _ (extractStridedSlice S133x1024 ![0, 0] (colD1 f X) slices_S135x1024_o0_0_S133x1024)
    (extractStridedSlice S133x1024 ![2, 0] (colD1 f X) slices_S135x1024_o2_0_S133x1024)
def colD3 (X : FVec Ideal S136x1024 .f32) : FVec Ideal S129x1024 .f32 :=
  f _ (extractStridedSlice S129x1024 ![0, 0] (colD2 f X) slices_S133x1024_o0_0_S129x1024)
    (extractStridedSlice S129x1024 ![4, 0] (colD2 f X) slices_S133x1024_o4_0_S129x1024)
def colD4 (X : FVec Ideal S136x1024 .f32) : FVec Ideal S128x1024 .f32 :=
  f _ (extractStridedSlice S128x1024 ![0, 0] (colD3 f X) slices_S129x1024_o0_0_S128x1024)
    (extractStridedSlice S128x1024 ![8, 0] X slices_S136x1024_o8_0_S128x1024)

variable {f op} (hf : ∀ (s : Shape) (A B : FVec Ideal s .f32) (i : s.Idx), f s A B i = op (A i) (B i))
include hf

theorem colD1_apply (X : FVec Ideal S136x1024 .f32) (c : Fin 1024) (q : ℕ) (hq : q < 135) :
    colD1 f X (ix2 ⟨q, hq⟩ c) = op (colNat X c q) (colNat X c (q + 1)) := by
  rw [← colNat_eq X c q (by omega), ← colNat_eq X c (q + 1) (by omega)]
  exact dbl_axis0 op (f _) (hf _) 1 X _ _ ⟨q, hq⟩ c _ _ rfl rfl

theorem colD2_apply (X : FVec Ideal S136x1024 .f32) (c : Fin 1024) (q : ℕ) (hq : q < 133) :
    colD2 f X (ix2 ⟨q, hq⟩ c)
      = op (op (colNat X c q) (colNat X c (q + 1))) (op (colNat X c (q + 2)) (colNat X c (q + 2 + 1))) := by
  rw [← colD1_apply hf X c q (by omega), ← colD1_apply hf X c (q + 2) (by omega)]
  exact dbl_axis0 op (f _) (hf _) 2 (colD1 f X) _ _ ⟨q, hq⟩ c _ _ rfl rfl

theorem colD3_apply (X : FVec Ideal S136x1024 .f32) (c : Fin 1024) (q : ℕ) (hq : q < 129) :
    colD3 f X (ix2 ⟨q, hq⟩ c)
      = op (op (op (colNat X c q) (colNat X c (q + 1))) (op (colNat X c (q + 2)) (colNat X c (q + 2 + 1))))
          (op (op (colNat X c (q + 4)) (colNat X c (q + 4 + 1))) (op (colNat X c (q + 4 + 2)) (colNat X c (q + 4 + 2 + 1)))) := by
  rw [← colD2_apply hf X c q (by omega), ← colD2_apply hf X c (q + 4) (by omega)]
  exact dbl_axis0 op (f _) (hf _) 4 (colD2 f X) _ _ ⟨q, hq⟩ c _ _ rfl rfl

theorem colD4_apply (X : FVec Ideal S136x1024 .f32) (c : Fin 1024) (q : ℕ) (hq : q < 128) :
    colD4 f X (ix2 ⟨q, hq⟩ c)
      = op (op (op (op (colNat X c q) (colNat X c (q + 1))) (op (colNat X c (q + 2)) (colNat X c (q + 2 + 1))))
          (op (op (colNat X c (q + 4)) (colNat X c (q + 4 + 1))) (op (colNat X c (q + 4 + 2)) (colNat X c (q + 4 + 2 + 1)))))
          (colNat X c (q + 8)) := by
  rw [← colD3_apply hf X c q (by omega), ← colNat_eq X c (q + 8) (by omega)]
  unfold colD4
  rw [hf, slice2_axis0_apply 0 (colD3 f X) _ ⟨q, hq⟩ c ⟨q, by omega⟩ (by simp),
    slice2_axis0_apply 8 X _ ⟨q, hq⟩ c ⟨q + 8, by omega⟩ (by simp; omega)]

end ColPass

/-! ## The weight payload: one plus twice the difference of the column pass's maximum and minimum -/

/-- Rows 4 .. 139 of a 144-row slab. -/
def mid (a : Vec Ideal S144x1024 .f32) : FVec Ideal S136x1024 .f32 :=
  extractStridedSlice S136x1024 ![4, 0] a slices_S144x1024_o4_0_S136x1024

theorem colNat_mid (a : Vec Ideal S144x1024 .f32) (c : Fin 1024) (q : ℕ) (hq : q < 136) :
    colNat (mid a) c q = colOf a c (q + 4) := by
  unfold colNat colOf mid
  rw [dif_pos hq, dif_pos (by omega)]
  exact slice2_axis0_apply 4 a _ ⟨q, hq⟩ c ⟨q + 4, by omega⟩ (by show q + 4 = 4 + q; omega)

/-- The column pass's maximum at (j, c). -/
def dilAt (a : Vec Ideal S144x1024 .f32) (j : Fin 128) (c : Fin 1024) : EReal :=
  colD4 (fun _ A B => maximumf A B) (mid a) (ix2 j c)

/-- The column pass's minimum at (j, c). -/
def eroAt (b : Vec Ideal S144x1024 .f32) (j : Fin 128) (c : Fin 1024) : EReal :=
  colD4 (fun _ A B => minimumf A B) (mid b) (ix2 j c)

/-- An upper bound of the column pass's maximum at (j, c) is an upper bound of the nine entries of column c from
    row j + 4 on. -/
theorem dilAt_le_iff (a : Vec Ideal S144x1024 .f32) (j : Fin 128) (c : Fin 1024) (e : EReal) :
    dilAt a j c ≤ e ↔ ∀ d < 9, colOf a c (j.val + 4 + d) ≤ e := by
  have hj := j.isLt
  unfold dilAt
  rw [show colD4 (fun _ A B => maximumf A B) (mid a) (ix2 j c) = _ from
      colD4_apply (op := max) (fun _ _ _ _ => rfl) _ c j.val hj,
    win9_max_le_iff]
  refine forall_congr' fun d => forall_congr' fun hd => ?_
  rw [colNat_mid a c (j.val + d) (by omega), show j.val + d + 4 = j.val + 4 + d by omega]

/-- A lower bound of the column pass's minimum at (j, c) is a lower bound of the same nine entries. -/
theorem le_eroAt_iff (b : Vec Ideal S144x1024 .f32) (j : Fin 128) (c : Fin 1024) (e : EReal) :
    e ≤ eroAt b j c ↔ ∀ d < 9, e ≤ colOf b c (j.val + 4 + d) := by
  have hj := j.isLt
  unfold eroAt
  rw [show colD4 (fun _ A B => minimumf A B) (mid b) (ix2 j c) = _ from
      colD4_apply (op := min) (fun _ _ _ _ => rfl) _ c j.val hj,
    le_win9_min_iff]
  refine forall_congr' fun d => forall_congr' fun hd => ?_
  rw [colNat_mid b c (j.val + d) (by omega), show j.val + d + 4 = j.val + 4 + d by omega]

/-- The weight payload at (j, c). -/
theorem pay3_apply (a b : Vec Ideal S144x1024 .f32) (j : Fin 128) (c : Fin 1024) :
    k0_pay3 (F := Ideal) a b (ix2 j c) = Cert.Spec.ONE + Cert.Spec.TWO * (dilAt a j c - eroAt b j c) := rfl

/-- (P3) The weight payload at (j, c) is one plus twice the difference of the greatest and the least of the nine
    entries of column c from row j + 4 on, each carried by its bounds. -/
theorem pay3_eq (a b : Vec Ideal S144x1024 .f32) (j : Fin 128) (c : Fin 1024) :
    ∃ D E : EReal, (∀ e, D ≤ e ↔ ∀ d < 9, colOf a c (j.val + 4 + d) ≤ e)
      ∧ (∀ e, e ≤ E ↔ ∀ d < 9, e ≤ colOf b c (j.val + 4 + d))
      ∧ k0_pay3 (F := Ideal) a b (ix2 j c) = Cert.Spec.ONE + Cert.Spec.TWO * (D - E) :=
  ⟨dilAt a j c, eroAt b j c, dilAt_le_iff a j c, le_eroAt_iff b j c, pay3_apply a b j c⟩

/-! ## The trip's sum -/

section Casts
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Casts

/-- The sum over the columns, kept as a column, then the sum over the rows, kept as one cell: at that cell the
    double sum of the entries. -/
theorem sum_rows_cols (W : FVec Ideal S128x1024 .f32) :
    shapeCast S1x1
        (multiReduction .add [0] S1
          (shapeCast S128x1 (multiReduction .add [1] S128 W 0x00000000#32 reduces_S128x1024_S128 (.inl rfl) rfl)
            shapeCasts_S128_S128x1)
          0x00000000#32 reduces_S128x1_S1 (.inl rfl) rfl)
        shapeCasts_S1_S1x1 (ix2 0 0)
      = ∑ j : Fin 128, ∑ c : Fin 1024, W (ix2 j c) := by
  refine (shapeCast_a_1a_apply _ _ (0 : Fin 1) (0 : Fin 1)).trans ?_
  refine (Ideal.multiReduction_add_single _ 0x00000000#32 reduces_S128x1_S1 (.inl rfl) rfl (ix1 0)).trans ?_
  show ∑ k : Fin 128, _ = _
  refine Finset.sum_congr rfl fun k _ => ?_
  have hl : reduces_S128x1_S1.lift (ix1 (0 : Fin 1)) k = ix2 k (0 : Fin 1) := by
    funext d
    match d with
    | ⟨0, _⟩ => rfl
    | ⟨1, _⟩ => rfl
  rw [hl]
  refine (shapeCast_a_a1_apply _ _ k (0 : Fin 1)).trans ?_
  refine (Ideal.multiReduction_add_single W 0x00000000#32 reduces_S128x1024_S128 (.inl rfl) rfl (ix1 k)).trans ?_
  show ∑ c : Fin 1024, _ = _
  refine Finset.sum_congr rfl fun c _ => ?_
  congr 1
  funext d
  match d with
  | ⟨0, _⟩ => rfl
  | ⟨1, _⟩ => rfl

/-- The weighted entries of one trip, before they are summed. -/
def perElt (v76 v80 v81 : FVec Ideal S128x1024 .f32) (cst_30 : Ideal .f32) : FVec Ideal S128x1024 .f32 :=
  have v82 : FVec Ideal S128x1024 .f32 := broadcast S128x1024 cst_30
  have v83 : FVec Ideal S128x1024 .f32 := subf v82 v81
  have cst_31 : Ideal .f32 := Scalar.ofBits .f32 0x00000000#32
  have v84 : FVec Ideal S128x1024 .f32 := broadcast S128x1024 cst_31
  have v85 : FVec Ideal S128x1024 .f32 := maximumf v83 v84
  have v86 : FVec Ideal S128x1024 .f32 := broadcast S128x1024 cst_31
  have v87 : FVec Ideal S128x1024 .f32 := subf v83 v86
  have v88 : IVec S128x1024 1 := cmpf .one v87 v87
  have v89 : FVec Ideal S128x1024 .f32 := broadcast S128x1024 cst_31
  have v90 : FVec Ideal S128x1024 .f32 := addf v83 v89
  have v91 : FVec Ideal S128x1024 .f32 := absf v87
  have cst_32 : Ideal .f32 := Scalar.ofBits .f32 0x00000000#32
  have v92 : FVec Ideal S128x1024 .f32 := broadcast S128x1024 cst_32
  have v93 : FVec Ideal S128x1024 .f32 := subf v92 v91
  have v94 : FVec Ideal S128x1024 .f32 := exp v93
  have v95 : FVec Ideal S128x1024 .f32 := log1p v94
  have v96 : FVec Ideal S128x1024 .f32 := addf v85 v95
  have v97 : FVec Ideal S128x1024 .f32 := select v88 v90 v96
  have v98 : FVec Ideal S128x1024 .f32 := addf v80 v97
  mulf v76 v98

theorem pay14_eq (arg7 : FVec Ideal S1x1 .f32) (v76 v80 v81 : FVec Ideal S128x1024 .f32) (cst_30 : Ideal .f32) :
    k0_pay14 arg7 v76 v80 v81 cst_30
      = addf arg7 (shapeCast S1x1
        (multiReduction .add [0] S1
          (shapeCast S128x1 (multiReduction .add [1] S128 (perElt v76 v80 v81 cst_30) 0x00000000#32 reduces_S128x1024_S128 (.inl rfl) rfl)
            shapeCasts_S128_S128x1)
          0x00000000#32 reduces_S128x1_S1 (.inl rfl) rfl)
        shapeCasts_S1_S1x1) := rfl

/-- A value is never different from itself: the comparison's bit is 0. -/
theorem cmp_one_self (t : EReal) : Ideal.cmp .one t t = 0#1 := by
  simp [Ideal.cmp]

/-- Zero less a value is its negation. -/
theorem zero_word_sub (t : EReal) : Cert.Spec.ZERO - t = -t := by
  rw [show Cert.Spec.ZERO = 0 from Ideal.ofBits_zero_f32, zero_sub]

/-- One weighted entry: the weight times the stable cross entropy of the logit and the target. -/
theorem perElt_apply (a b : Vec Ideal S144x1024 .f32) (x y : Vec Ideal S1x128x1024 .f32) (j : Fin 128) (c : Fin 1024) :
    perElt (k0_pay3 a b) (k0_pay4 x y) (k0_pay5 x) (Scalar.ofBits .f32 0x00000000#32) (ix2 j c)
      = Cert.Spec.weighted (dilAt a j c) (eroAt b j c) (x (ix3 0 j c)) (y (ix3 0 j c)) := by
  have hx : k0_pay2 (F := Ideal) x (ix2 j c) = x (ix3 0 j c) := shapeCast_1ab_ab_apply x _ j c
  have hy : shapeCast S128x1024 y shapeCasts_S1x128x1024_S128x1024 (ix2 j c) = y (ix3 0 j c) := shapeCast_1ab_ab_apply y _ j c
  have h4 : k0_pay4 (F := Ideal) x y (ix2 j c)
      = max (x (ix3 0 j c)) Cert.Spec.ZERO - x (ix3 0 j c) * y (ix3 0 j c) := by
    rw [← hx, ← hy]; rfl
  have h5 : k0_pay5 (F := Ideal) x (ix2 j c) = max (x (ix3 0 j c)) (-(x (ix3 0 j c))) := by
    rw [← hx]; rfl
  generalize x (ix3 0 j c) = X at h4 h5 ⊢
  generalize y (ix3 0 j c) = Y at h4 ⊢
  have key : ∀ (w p q : EReal), (w * (p + Scalar.select (Ideal.cmp .one (Cert.Spec.ZERO - q - Cert.Spec.ZERO) (Cert.Spec.ZERO - q - Cert.Spec.ZERO))
        (Cert.Spec.ZERO - q + Cert.Spec.ZERO)
        (max (Cert.Spec.ZERO - q) Cert.Spec.ZERO
          + Ideal.log1p (Ideal.exp (Cert.Spec.ZERO - max (Cert.Spec.ZERO - q - Cert.Spec.ZERO) (-(Cert.Spec.ZERO - q - Cert.Spec.ZERO)))))))
      = w * (p + Cert.Spec.softplus (-q)) := by
    intro w p q
    rw [cmp_one_self, select_zero]
    unfold Cert.Spec.softplus
    rw [zero_word_sub q, zero_word_sub]
  show k0_pay3 (F := Ideal) a b (ix2 j c) * (k0_pay4 (F := Ideal) x y (ix2 j c) + Scalar.select
      (Ideal.cmp .one (Cert.Spec.ZERO - k0_pay5 (F := Ideal) x (ix2 j c) - Cert.Spec.ZERO) (Cert.Spec.ZERO - k0_pay5 (F := Ideal) x (ix2 j c) - Cert.Spec.ZERO))
      (Cert.Spec.ZERO - k0_pay5 (F := Ideal) x (ix2 j c) + Cert.Spec.ZERO)
      (max (Cert.Spec.ZERO - k0_pay5 (F := Ideal) x (ix2 j c)) Cert.Spec.ZERO
        + Ideal.log1p (Ideal.exp (Cert.Spec.ZERO - max (Cert.Spec.ZERO - k0_pay5 (F := Ideal) x (ix2 j c) - Cert.Spec.ZERO)
            (-(Cert.Spec.ZERO - k0_pay5 (F := Ideal) x (ix2 j c) - Cert.Spec.ZERO)))))) = _
  rw [key, pay3_apply, h4, h5]
  rfl

/-- (P4) One trip adds to the accumulator's cell the sum, over the 128 x 1024 entries of the trip's slab, of the
    weighted cross entropies; the weights' two window values are carried by their bounds. -/
theorem trip_sum (acc : FVec Ideal S1x1 .f32) (a b : Vec Ideal S144x1024 .f32) (x y : Vec Ideal S1x128x1024 .f32) :
    ∃ Dm Em : Fin 128 → Fin 1024 → EReal,
      (∀ j c e, Dm j c ≤ e ↔ ∀ d < 9, colOf a c (j.val + 4 + d) ≤ e)
      ∧ (∀ j c e, e ≤ Em j c ↔ ∀ d < 9, e ≤ colOf b c (j.val + 4 + d))
      ∧ k0_pay14 (F := Ideal) acc (k0_pay3 a b) (k0_pay4 x y) (k0_pay5 x) (Scalar.ofBits .f32 0x00000000#32) (ix2 0 0)
        = acc (ix2 0 0) + ∑ j : Fin 128, ∑ c : Fin 1024,
            Cert.Spec.weighted (Dm j c) (Em j c) (x (ix3 0 j c)) (y (ix3 0 j c)) := by
  refine ⟨dilAt a, eroAt b, dilAt_le_iff a, le_eroAt_iff b, ?_⟩
  rw [pay14_eq, addf_apply, sum_rows_cols]
  refine congrArg (acc (ix2 0 0) + ·) ?_
  exact Finset.sum_congr rfl fun j _ => Finset.sum_congr rfl fun c _ => perElt_apply a b x y j c

end Cert.KernelIdeal.PayMath

end
-- ==== Proof.RefSide.lean ====
/-
  The reference's side of the bridge, read at the ideal values.

  The reference computes, per pixel, the greatest and the least target entry over the 9 x 9 window
  (a left fold of max, resp. min, over the 81 window positions, the padding holding the fold's
  neutral element), weights the pixel's stable binary cross entropy by one plus twice their
  difference, sums all entries and divides by their number. Here that run is restated over three
  definitions (the weighted array `refW`, the closing sum and division `tail`, and one image of
  the targets as a function of two naturals `img`), the weighted array is read at an index
  against the shared vocabulary, and the closing sum is read as a finite sum.

  The window folds are carried by their universal property: a left fold of max from `v` is below `e`
  exactly when `v` and every folded entry are; dually for min. The 81 positions are the pairs of
  offsets (dr, dc), each below nine; a position inside the image contributes the target entry there, one in
  the padding contributes the neutral element, which bounds nothing.
-/
import proofs.«410240_j29961691857675_3_alg».proof.Proof.Gen.ReferenceIdeal.Run
import proofs.«410240_j29961691857675_3_alg».proof.Proof.Gen.ReferenceIdeal.Read
import proofs.«410240_j29961691857675_3_alg».proof.Proof.Spec
import Idealize.ShloMosaic.PureOps.Ideal
import Idealize.ShloMosaic.PureOps.Ideal.Laws
import Idealize.ShloMosaic.Lib.ValueIdx

noncomputable section

namespace Cert.RefSide

open Cert.ReferenceIdeal Cert.ReferenceIdeal.Gen Idealize.ShloMosaic Idealize.ShloMosaic.TcCoe Idealize.SL.Sem Idealize.ShloMosaic.StableHlo
open Idealize.ShloMosaic.ValueIdx Cert.Spec

/-! ## The three definitions -/

/-- Image `b` of the targets as a function of a row and a column (zero outside the image). -/
def img (Y : FVec Ideal S16x1x1024x1024 .f32) (b : Fin 16) : ℕ → ℕ → EReal :=
  fun r c => if h : r < 1024 ∧ c < 1024 then Y (ValueIdx.ix4 b 0 ⟨r, h.1⟩ ⟨c, h.2⟩) else 0

/-- The weighted per-pixel loss array the reference sums, as a term of the logits `X` and the targets `Y`. -/
def refW (X Y : FVec Ideal S16x1x1024x1024 .f32) : FVec Ideal S16x1x1024x1024 .f32 :=
  mulf (addf (broadcastInDim S16x1x1024x1024 ![] bcast_S_S16x1x1024x1024 (constant (F := Ideal) S_ .f32 0x3F800000#32)) (mulf (broadcastInDim S16x1x1024x1024 ![] bcast_S_S16x1x1024x1024 (constant (F := Ideal) S_ .f32 0x40000000#32)) (subf (Host.reduceWindow (FloatOps.maximumf (F := Ideal)) ![1, 1, 9, 9] ![1, 1, 1, 1] ![0, 0, 4, 4] ![0, 0, 4, 4] Y (broadcastInDim S_ ![] bcast_S_S_ (constant (F := Ideal) S_ .f32 0xFF800000#32)) reduceWindows_S16x1x1024x1024_S16x1x1024x1024_w1s1p0_0_w1s1p0_0_w9s1p4_4_w9s1p4_4 h_S_) (Host.reduceWindow (FloatOps.minimumf (F := Ideal)) ![1, 1, 9, 9] ![1, 1, 1, 1] ![0, 0, 4, 4] ![0, 0, 4, 4] Y (broadcastInDim S_ ![] bcast_S_S_ (constant (F := Ideal) S_ .f32 0x7F800000#32)) reduceWindows_S16x1x1024x1024_S16x1x1024x1024_w1s1p0_0_w1s1p0_0_w9s1p4_4_w9s1p4_4 h_S_)))) (addf (subf (maximumf X (broadcastInDim S16x1x1024x1024 ![] bcast_S_S16x1x1024x1024 (constant (F := Ideal) S_ .f32 0x00000000#32))) (mulf X Y)) (select (cmpf .une (subf (Host.negf (F := Ideal) (Host.absf (F := Ideal) X)) (broadcastInDim S16x1x1024x1024 ![] bcast_S_S16x1x1024x1024 (constant (F := Ideal) S_ .f32 0x00000000#32))) (subf (Host.negf (F := Ideal) (Host.absf (F := Ideal) X)) (broadcastInDim S16x1x1024x1024 ![] bcast_S_S16x1x1024x1024 (constant (F := Ideal) S_ .f32 0x00000000#32)))) (addf (Host.negf (F := Ideal) (Host.absf (F := Ideal) X)) (broadcastInDim S16x1x1024x1024 ![] bcast_S_S16x1x1024x1024 (constant (F := Ideal) S_ .f32 0x00000000#32))) (addf (maximumf (Host.negf (F := Ideal) (Host.absf (F := Ideal) X)) (broadcastInDim S16x1x1024x1024 ![] bcast_S_S16x1x1024x1024 (constant (F := Ideal) S_ .f32 0x00000000#32))) (Host.log1p (F := Ideal) (Host.exp (F := Ideal) (Host.negf (F := Ideal) (Host.absf (F := Ideal) (subf (Host.negf (F := Ideal) (Host.absf (F := Ideal) X)) (broadcastInDim S16x1x1024x1024 ![] bcast_S_S16x1x1024x1024 (constant (F := Ideal) S_ .f32 0x00000000#32))))))))))

/-- The reference's closing steps: the sum of every entry from zero, divided by the number of entries. -/
def tail (W : FVec Ideal S16x1x1024x1024 .f32) : FVec Ideal S_ .f32 :=
  Host.divf (F := Ideal) (Host.reduceAdd (F := Ideal) W (constant (F := Ideal) S_ .f32 0x00000000#32) reducesTo_S16x1x1024x1024_S_d0_1_2_3 h_S_) (constant (F := Ideal) S_ .f32 0x4B800000#32)

/-! ## The run and the closing sum -/

/-- The reference's run, restated over `tail` and `refW`: its postcondition puts the result buffer at
    `tail (refW X Y)` of the two arguments' launch contents and leaves the arguments unchanged. -/
theorem run_ref (m : (l : Loc nD τ sig) → Buf (Elt Ideal) l) (ρ : Dev nD → PrngReg) :
    θ_run (Cert.ReferenceIdeal.defs (F := Ideal)) (onTc (τ := τ) (Cert.ReferenceIdeal.main (F := Ideal))) ⟨m, fun _ => 0, ρ⟩
      (fun r => ∀ c : Dev nD,
        r.2.mem ((c.tc : Thread nD τ).loc main_v19)
            = tail (refW (m ((c.tc : Thread nD τ).loc main_arg0)) (m ((c.tc : Thread nD τ).loc main_arg1)))
        ∧ r.2.mem ((c.tc : Thread nD τ).loc main_arg0) = m ((c.tc : Thread nD τ).loc main_arg0)
        ∧ r.2.mem ((c.tc : Thread nD τ).loc main_arg1) = m ((c.tc : Thread nD τ).loc main_arg1)) :=
  Cert.ReferenceIdeal.Value.run (F := Ideal) m ρ

/-- The closing steps read as a finite sum: zero plus the sum of all entries, divided by the count's float. -/
theorem tail_eq (W : FVec Ideal S16x1x1024x1024 .f32) :
    tail W = fun _ => Ideal.div (Cert.Spec.ZERO + ∑ i : S16x1x1024x1024.Idx, W i) (Ideal.ofBits .f32 0x4B800000#32) := by
  funext j
  unfold tail
  show Ideal.div (Ideal.hostReduceAdd reducesTo_S16x1x1024x1024_S_d0_1_2_3 W (Ideal.ofBits .f32 0x00000000#32) j) (Ideal.ofBits .f32 0x4B800000#32) = _
  rw [Ideal.hostReduceAdd_total reducesTo_S16x1x1024x1024_S_d0_1_2_3 (fun b => b.elim0) W _ j]

/-! ## A left fold by its universal property -/

/-- For a relation `R` that an operation `f` splits (`R (f a b) e ↔ R a e ∧ R b e`: "below `e`" for max, "above `e`"
    for min), the left fold of `f` from `v` over the entries `g n` is related to `e` exactly when `v` and every entry are. -/
theorem foldl_rel_iff {ι : Type} (R : EReal → EReal → Prop) (f : EReal → EReal → EReal)
    (hf : ∀ a b e, R (f a b) e ↔ R a e ∧ R b e) (g : ι → EReal) (e : EReal) (l : List ι) (v : EReal) :
    R (l.foldl (fun r n => f r (g n)) v) e ↔ R v e ∧ ∀ n ∈ l, R (g n) e := by
  induction l generalizing v with
  | nil => simp
  | cons a l ih =>
    rw [List.foldl_cons, ih, hf]
    simp only [List.mem_cons, forall_eq_or_imp, and_assoc]

/-! ## The window at an index -/

/-- The shape of the window's positions: one, one, nine, nine. -/
abbrev Wn : Shape := ⟨4, ![1, 1, 9, 9]⟩

/-- The operand index a window position names: at output index (b, 0, r, c) and window offset (a0, a1, dr, dc), with
    strides one and low padding (0, 0, 4, 4), an index whose coordinates are "output coordinate times one plus offset
    minus padding" is (b, 0, r + dr - 4, c + dc - 4). -/
theorem idx_eq (b : Fin 16) (r c : Fin 1024) (a0 a1 : Fin 1) (dr dc : Fin 9)
    (hr : r.val + dr.val - 4 < 1024) (hc : c.val + dc.val - 4 < 1024) (F1 : S16x1x1024x1024.Idx)
    (hF : ∀ a : Fin 4, (F1 a).val
      = (ValueIdx.ix4 b (0 : Fin 1) r c a).val * (![1, 1, 1, 1] : Fin 4 → ℕ) a + (ValueIdx.ix4 a0 a1 dr dc a).val - (![0, 0, 4, 4] : Fin 4 → ℕ) a) :
    F1 = ValueIdx.ix4 b 0 ⟨r.val + dr.val - 4, hr⟩ ⟨c.val + dc.val - 4, hc⟩ := by
  have h0 := a0.isLt
  have h1 := a1.isLt
  funext a
  match a with
  | ⟨0, _⟩ => exact Fin.ext ((hF ⟨0, (by decide : 0 < 4)⟩).trans (by show b.val * 1 + a0.val - 0 = b.val; omega))
  | ⟨1, _⟩ => exact Fin.ext ((hF ⟨1, (by decide : 1 < 4)⟩).trans (by show 0 * 1 + a1.val - 0 = 0; omega))
  | ⟨2, _⟩ => exact Fin.ext ((hF ⟨2, (by decide : 2 < 4)⟩).trans (by show r.val * 1 + dr.val - 4 = r.val + dr.val - 4; omega))
  | ⟨3, _⟩ => exact Fin.ext ((hF ⟨3, (by decide : 3 < 4)⟩).trans (by show c.val * 1 + dc.val - 4 = c.val + dc.val - 4; omega))

/-- The reference's 9 x 9 window fold of `f` at pixel (r, c) of image `b`, for a relation `R` that `f` splits and that
    the initial value satisfies: the fold is related to `e` exactly when every image entry of the window's in-image
    part is. (The 81 positions are reached through the row-major bijection of the window's index set; a position in
    the padding holds the initial value.) -/
theorem reduceWindow_rel_iff (R : EReal → EReal → Prop) (f : EReal → EReal → EReal)
    (hf : ∀ a b e, R (f a b) e ↔ R a e ∧ R b e) (Y : FVec Ideal S16x1x1024x1024 .f32) (init : FVec Ideal S_ .f32)
    (b : Fin 16) (r c : Fin 1024) (e : EReal) (hv : R (init (Shape.Idx.first h_S_)) e) :
    R (Host.reduceWindow f ![1, 1, 9, 9] ![1, 1, 1, 1] ![0, 0, 4, 4] ![0, 0, 4, 4] Y init
        reduceWindows_S16x1x1024x1024_S16x1x1024x1024_w1s1p0_0_w1s1p0_0_w9s1p4_4_w9s1p4_4 h_S_ (ValueIdx.ix4 b 0 r c)) e
      ↔ ∀ dr < 9, ∀ dc < 9, InWin r.val dr → InWin c.val dc → R (img Y b (r.val + dr - 4) (c.val + dc - 4)) e := by
  unfold Host.reduceWindow
  refine (foldl_rel_iff R f hf _ e _ _).trans ?_
  constructor
  · -- every position's entry is related to `e`; read the one at offset (0, 0, dr, dc)
    rintro ⟨-, h⟩ dr hdr dc hdc hr hc
    have h1 := h (Wn.rowMajor (ValueIdx.ix4 0 0 ⟨dr, hdr⟩ ⟨dc, hdc⟩)) (List.mem_finRange _)
    simp only [Equiv.symm_apply_apply] at h1
    unfold InWin at hr hc
    have hr' : r.val + dr - 4 < 1024 := by omega
    have hc' : c.val + dc - 4 < 1024 := by omega
    unfold img
    rw [dif_pos ⟨hr', hc'⟩]
    split at h1
    · rename_i hin
      have key : ∀ F1 : S16x1x1024x1024.Idx, F1 = ValueIdx.ix4 b 0 ⟨r.val + dr - 4, hr'⟩ ⟨c.val + dc - 4, hc'⟩ →
          R (Y F1) e → R (Y (ValueIdx.ix4 b 0 ⟨r.val + dr - 4, hr'⟩ ⟨c.val + dc - 4, hc'⟩)) e := fun _ hF h => hF ▸ h
      exact key _ (idx_eq b r c 0 0 ⟨dr, hdr⟩ ⟨dc, hdc⟩ hr' hc' _ (fun a => rfl)) h1
    · -- the position is inside the image on every axis, so the padding branch does not occur
      rename_i hneg
      exfalso
      apply hneg
      intro a
      match a with
      | ⟨0, _⟩ => show 0 ≤ b.val * 1 + 0 ∧ b.val * 1 + 0 - 0 < 16; omega
      | ⟨1, _⟩ => show 0 ≤ 0 * 1 + 0 ∧ 0 * 1 + 0 - 0 < 1; omega
      | ⟨2, _⟩ => show 4 ≤ r.val * 1 + dr ∧ r.val * 1 + dr - 4 < 1024; omega
      | ⟨3, _⟩ => show 4 ≤ c.val * 1 + dc ∧ c.val * 1 + dc - 4 < 1024; omega
  · -- conversely every position is some offset (a0, a1, dr, dc): inside the image its entry is an image entry, else the initial value
    intro h
    refine ⟨hv, fun n _ => ?_⟩
    obtain ⟨i, rfl⟩ := Wn.rowMajor.surjective n
    simp only [Equiv.symm_apply_apply]
    obtain ⟨a0, a1, dr, dc, rfl⟩ : ∃ (a0 a1 : Fin 1) (dr dc : Fin 9), i = ValueIdx.ix4 a0 a1 dr dc :=
      ⟨i 0, i 1, i 2, i 3, ValueIdx.eq_ix4 i⟩
    split
    · rename_i hin
      have h2' := hin ⟨2, by decide⟩
      have h3' := hin ⟨3, by decide⟩
      have h2 : 4 ≤ r.val * 1 + dr.val ∧ r.val * 1 + dr.val - 4 < 1024 := h2'
      have h3 : 4 ≤ c.val * 1 + dc.val ∧ c.val * 1 + dc.val - 4 < 1024 := h3'
      have hr' : r.val + dr.val - 4 < 1024 := by omega
      have hc' : c.val + dc.val - 4 < 1024 := by omega
      have h4 := h dr.val dr.isLt dc.val dc.isLt (by unfold InWin; omega) (by unfold InWin; omega)
      unfold img at h4
      rw [dif_pos ⟨hr', hc'⟩] at h4
      have key : ∀ F1 : S16x1x1024x1024.Idx, F1 = ValueIdx.ix4 b 0 ⟨r.val + dr.val - 4, hr'⟩ ⟨c.val + dc.val - 4, hc'⟩ →
          R (Y (ValueIdx.ix4 b 0 ⟨r.val + dr.val - 4, hr'⟩ ⟨c.val + dc.val - 4, hc'⟩)) e → R (Y F1) e := fun _ hF h => hF ▸ h
      exact key _ (idx_eq b r c a0 a1 dr dc hr' hc' _ (fun a => rfl)) h4
    · exact hv

/-! ## The weighted array at an index -/

/-- On a linear order nothing differs from itself, so the comparison "not equal" of a value with itself is the bit 0. -/
theorem cmp_une_self (z : EReal) : Ideal.cmp .une z z = 0#1 := by
  simp [Ideal.cmp]

/-- The pointwise part: the reference's entry is the shared `weighted` of its two window folds, the logit and the target
    (its select on "n - 0 differs from itself" takes the second branch; everything else is the shared spelling). -/
theorem refW_point (X Y : FVec Ideal S16x1x1024x1024 .f32) (i : S16x1x1024x1024.Idx) :
    refW X Y i = Cert.Spec.weighted
      (Host.reduceWindow (FloatOps.maximumf (F := Ideal) (φ := .f32)) ![1, 1, 9, 9] ![1, 1, 1, 1] ![0, 0, 4, 4] ![0, 0, 4, 4] Y (broadcastInDim S_ ![] bcast_S_S_ (constant (F := Ideal) S_ .f32 0xFF800000#32)) reduceWindows_S16x1x1024x1024_S16x1x1024x1024_w1s1p0_0_w1s1p0_0_w9s1p4_4_w9s1p4_4 h_S_ i)
      (Host.reduceWindow (FloatOps.minimumf (F := Ideal) (φ := .f32)) ![1, 1, 9, 9] ![1, 1, 1, 1] ![0, 0, 4, 4] ![0, 0, 4, 4] Y (broadcastInDim S_ ![] bcast_S_S_ (constant (F := Ideal) S_ .f32 0x7F800000#32)) reduceWindows_S16x1x1024x1024_S16x1x1024x1024_w1s1p0_0_w1s1p0_0_w9s1p4_4_w9s1p4_4 h_S_ i)
      (X i) (Y i) := by
  unfold refW Cert.Spec.weighted Cert.Spec.bce Cert.Spec.softplus
  simp only [mulf_apply, addf_apply, subf_apply, maximumf_apply, select_apply, cmpf_apply, Ideal.cmpf_def, cmp_une_self, select_zero]
  rfl

/-- The two infinities' words: the folds' initial values are the bottom and the top element. -/
theorem ofBits_neg_inf : Ideal.ofBits .f32 0xFF800000#32 = ⊥ := by simp [Ideal.ofBits, Ideal.ieee]
theorem ofBits_pos_inf : Ideal.ofBits .f32 0x7F800000#32 = ⊤ := by simp [Ideal.ofBits, Ideal.ieee]

/-- The reference's weighted entry at pixel (r, c) of image `b`: the shared `weighted` of a greatest and a least entry
    of the 9 x 9 window's in-image part (the two window folds there), the logit and the target. -/
theorem refW_apply (X Y : FVec Ideal S16x1x1024x1024 .f32) (b : Fin 16) (r c : Fin 1024) :
    ∃ D E : EReal, Cert.Spec.IsWinMax (img Y b) r.val c.val D ∧ Cert.Spec.IsWinMin (img Y b) r.val c.val E
      ∧ refW X Y (ValueIdx.ix4 b 0 r c)
          = Cert.Spec.weighted D E (X (ValueIdx.ix4 b 0 r c)) (Y (ValueIdx.ix4 b 0 r c)) := by
  refine ⟨_, _, ?_, ?_, refW_point X Y (ValueIdx.ix4 b 0 r c)⟩
  · intro e
    refine reduceWindow_rel_iff (fun a e => a ≤ e) (FloatOps.maximumf (F := Ideal) (φ := .f32)) (fun a b e => max_le_iff) Y _ b r c e ?_
    show Ideal.ofBits .f32 0xFF800000#32 ≤ e
    rw [ofBits_neg_inf]
    exact bot_le
  · intro e
    refine reduceWindow_rel_iff (fun a e => e ≤ a) (FloatOps.minimumf (F := Ideal) (φ := .f32)) (fun a b e => le_min_iff) Y _ b r c e ?_
    show e ≤ Ideal.ofBits .f32 0x7F800000#32
    rw [ofBits_pos_inf]
    exact le_top

end Cert.RefSide

end
-- ==== Proof.WindowBridge.lean ====
/-
  The separable arrangement of the 9 x 9 window. A scratch of 1040 rows holds, at row `8 + r`, the greatest entry
  of the image's row `r` over the in-image part of the nine columns around a column, and the neutral element in its
  eight top and eight bottom rows; the greatest of the nine scratch rows `r + 4 .. r + 12` at that column is then
  the greatest entry of the in-image part of the 9 x 9 window centred at `(r, column)`. Stated by upper bounds
  (dually, lower bounds for the least entry), so no maximum is ever computed.
-/
import proofs.«410240_j29961691857675_3_alg».proof.Proof.Spec

namespace Cert.WindowBridge

open Cert.Spec

/-- Upper bounds of the scratch entries give the window maximum's universal property. -/
theorem isWinMax_of_scratch {f S : ℕ → ℕ → EReal} {k j q : ℕ} (hk : k < 8) (hj : j < 128) (hq : q < 1024) {D : EReal}
    (hS : ∀ s, s < 1040 → ∀ e : EReal, S s q ≤ e ↔ (8 ≤ s → s < 1032 → ∀ dc < 9, InWin q dc → f (s - 8) (q + dc - 4) ≤ e))
    (hD : ∀ e : EReal, D ≤ e ↔ ∀ d < 9, S (128 * k + j + 4 + d) q ≤ e) :
    IsWinMax f (128 * k + j) q D := by
  intro e
  rw [hD e]
  constructor
  · intro h dr hdr dc hdc hr hc
    have h1 := (hS (128 * k + j + 4 + dr) (by omega) e).mp (h dr hdr)
    unfold InWin at hr
    have h2 := h1 (by omega) (by omega) dc hdc hc
    rwa [show 128 * k + j + 4 + dr - 8 = 128 * k + j + dr - 4 by omega] at h2
  · intro h d hd
    refine (hS (128 * k + j + 4 + d) (by omega) e).mpr fun h8 h1032 dc hdc hc => ?_
    have h2 := h d hd dc hdc (by unfold InWin; omega) hc
    rwa [show 128 * k + j + d - 4 = 128 * k + j + 4 + d - 8 by omega] at h2

/-- Lower bounds of the scratch entries give the window minimum's universal property. -/
theorem isWinMin_of_scratch {f S : ℕ → ℕ → EReal} {k j q : ℕ} (hk : k < 8) (hj : j < 128) (hq : q < 1024) {E : EReal}
    (hS : ∀ s, s < 1040 → ∀ e : EReal, e ≤ S s q ↔ (8 ≤ s → s < 1032 → ∀ dc < 9, InWin q dc → e ≤ f (s - 8) (q + dc - 4)))
    (hE : ∀ e : EReal, e ≤ E ↔ ∀ d < 9, e ≤ S (128 * k + j + 4 + d) q) :
    IsWinMin f (128 * k + j) q E := by
  intro e
  rw [hE e]
  constructor
  · intro h dr hdr dc hdc hr hc
    have h1 := (hS (128 * k + j + 4 + dr) (by omega) e).mp (h dr hdr)
    unfold InWin at hr
    have h2 := h1 (by omega) (by omega) dc hdc hc
    rwa [show 128 * k + j + 4 + dr - 8 = 128 * k + j + dr - 4 by omega] at h2
  · intro h d hd
    refine (hS (128 * k + j + 4 + d) (by omega) e).mpr fun h8 h1032 dc hdc hc => ?_
    have h2 := h d hd dc hdc (by unfold InWin; omega) hc
    rwa [show 128 * k + j + d - 4 = 128 * k + j + 4 + d - 8 by omega] at h2

end Cert.WindowBridge
-- ==== Proof.KernelChunk.lean ====
/-
  One trip of the second loop adds to the carried sum the weighted loss of its chunk of 128 rows, and that chunk's
  weighted loss is the reference's weighted array on those rows.

  The trip's payload (the generated yield, opened once) is the column pass over the 144 scratch rows around the chunk,
  the pointwise loss of the chunk's logits and targets, and two lane sums. A scratch row holds the row pass of an image
  row or the neutral element, so the column pass of the scratch is the 9 x 9 window's greatest (least) entry, by its
  upper (lower) bounds; the reference's window fold has the same bounds, hence the same value.
-/
import proofs.«410240_j29961691857675_3_alg».proof.Proof.KernelValue
import proofs.«410240_j29961691857675_3_alg».proof.Proof.PayMath
import proofs.«410240_j29961691857675_3_alg».proof.Proof.RefSide
import proofs.«410240_j29961691857675_3_alg».proof.Proof.WindowBridge

set_option maxRecDepth 16384

noncomputable section

namespace Cert.KernelIdeal.KValue

open Cert.KernelIdeal Cert.KernelIdeal.Gen Cert.KernelIdeal.GenP
open Idealize.ShloMosaic Idealize.ShloMosaic.TcCoe Idealize.SL.Sem Idealize.ShloMosaic.ValueIdx
open Cert.Spec

/-- The column of the 144 rows trip `k` loads is the scratch's column from row `128 k` on. -/
theorem colOf_ld (S : S1040x1024.Idx → Elt Ideal .f32) (k : Fin 8) (q : Fin 1024) (p : ℕ) (hp : p < 144) :
    PayMath.colOf (View.ld S (Trips.R3 (kk k))) q p = scrN S (128 * k.val + p) q.val := by
  unfold PayMath.colOf scrN
  rw [dif_pos hp, dif_pos ⟨by omega, q.isLt⟩]
  exact ld_R3 S k ⟨p, hp⟩ q

/-- The block of image `b` agrees with the array's image `b` inside the image. -/
theorem imgK_eq (x1 : Vec Ideal S1x1024x1024 .f32) (Y : FVec Ideal Cert.ReferenceIdeal.S16x1x1024x1024 .f32) (b : Fin 16)
    (hy : ∀ r q : Fin 1024, x1 (ix3 0 r q) = Y (ix4 b 0 r q)) (r q : ℕ) (hr : r < 1024) (hq : q < 1024) :
    imgK x1 r q = RefSide.img Y b r q := by
  unfold imgK RefSide.img
  rw [dif_pos ⟨hr, hq⟩, dif_pos ⟨hr, hq⟩]
  exact hy _ _

/-- ONE TRIP: the carried sum grows by the reference's weighted array summed over the trip's 128 rows. The two
    hypotheses say what the scratch buffers hold: row `s` of the first is bounded above by `e` exactly when it is a margin
    row or the in-image part of the nine columns around `q` of image row `s - 8` is; dually for the second. -/
theorem chunk (c : Dev nD) (i : grid0.Coords) (arg1 : Memref sig .tc .vmem S1x1024x1024 .f32) (harg1 : arg1.IsWhole) (arg2 : Memref sig .tc .vmem S1x1024x1024 .f32) (harg2 : arg2.IsWhole) (arg3 : Memref sig .tc .vmem S1x8x128 .f32) (harg3 : arg3.IsWhole) (arg4 : Memref sig .tc .vmem S1040x1024 .f32) (harg4 : arg4.IsWhole) (arg5 : Memref sig .tc .vmem S1040x1024 .f32) (harg5 : arg5.IsWhole) (x0 x1 : Vec Ideal S1x1024x1024 .f32)
    (X Y : FVec Ideal Cert.ReferenceIdeal.S16x1x1024x1024 .f32) (b : Fin 16)
    (hx : ∀ r q : Fin 1024, x0 (ix3 0 r q) = X (ix4 b 0 r q)) (hy : ∀ r q : Fin 1024, x1 (ix3 0 r q) = Y (ix4 b 0 r q))
    (hSmax : ∀ (q s : ℕ), q < 1024 → s < 1040 → ∀ e : EReal, scrN (sMax c i arg1 harg1 arg2 harg2 arg3 harg3 arg4 harg4 arg5 harg5 x1) s q ≤ e ↔
      (8 ≤ s → s < 1032 → ∀ dc < 9, InWin q dc → imgK x1 (s - 8) (q + dc - 4) ≤ e))
    (hSmin : ∀ (q s : ℕ), q < 1024 → s < 1040 → ∀ e : EReal, e ≤ scrN (sMin c i arg1 harg1 arg2 harg2 arg3 harg3 arg4 harg4 arg5 harg5 x1) s q ↔
      (8 ≤ s → s < 1032 → ∀ dc < 9, InWin q dc → e ≤ imgK x1 (s - 8) (q + dc - 4)))
    (k : Fin 8) :
    accAt c i arg1 harg1 arg2 harg2 arg3 harg3 arg4 harg4 arg5 harg5 x0 x1 (k.val + 1) (ix2 0 0)
      = accAt c i arg1 harg1 arg2 harg2 arg3 harg3 arg4 harg4 arg5 harg5 x0 x1 k.val (ix2 0 0)
        + ∑ j : Fin 128, ∑ q : Fin 1024, RefSide.refW X Y (ix4 b 0 (Sums.rowOf k j) q) := by
  rw [accAt_succ, Trips.tripR_eq, harg1.read_unread, harg2.read_unread, harg4.read_unread, harg5.read_unread]
  obtain ⟨Dm, Em, hD, hE, hsum⟩ := PayMath.trip_sum (accAt c i arg1 harg1 arg2 harg2 arg3 harg3 arg4 harg4 arg5 harg5 x0 x1 k.val)
    (View.ld (sMax c i arg1 harg1 arg2 harg2 arg3 harg3 arg4 harg4 arg5 harg5 x1) (Trips.R3 (kk k))) (View.ld (sMin c i arg1 harg1 arg2 harg2 arg3 harg3 arg4 harg4 arg5 harg5 x1) (Trips.R3 (kk k)))
    (View.ld x0 (Trips.R4 (kk k))) (View.ld x1 (Trips.R4 (kk k)))
  refine hsum.trans ?_
  congr 1
  refine Finset.sum_congr rfl fun j _ => Finset.sum_congr rfl fun q _ => ?_
  obtain ⟨D, E, hDref, hEref, href⟩ := RefSide.refW_apply X Y b (Sums.rowOf k j) q
  have hDk : IsWinMax (imgK x1) (128 * k.val + j.val) q.val (Dm j q) :=
    WindowBridge.isWinMax_of_scratch k.isLt j.isLt q.isLt (S := scrN (sMax c i arg1 harg1 arg2 harg2 arg3 harg3 arg4 harg4 arg5 harg5 x1))
      (fun s hs e => hSmax q.val s q.isLt hs e)
      (fun e => by
        rw [hD j q e]
        refine forall_congr' fun d => forall_congr' fun hd => ?_
        rw [colOf_ld _ k q (j.val + 4 + d) (by omega), show 128 * k.val + (j.val + 4 + d) = 128 * k.val + j.val + 4 + d by omega])
  have hEk : IsWinMin (imgK x1) (128 * k.val + j.val) q.val (Em j q) :=
    WindowBridge.isWinMin_of_scratch k.isLt j.isLt q.isLt (S := scrN (sMin c i arg1 harg1 arg2 harg2 arg3 harg3 arg4 harg4 arg5 harg5 x1))
      (fun s hs e => hSmin q.val s q.isLt hs e)
      (fun e => by
        rw [hE j q e]
        refine forall_congr' fun d => forall_congr' fun hd => ?_
        rw [colOf_ld _ k q (j.val + 4 + d) (by omega), show 128 * k.val + (j.val + 4 + d) = 128 * k.val + j.val + 4 + d by omega])
  have eD : Dm j q = D := (hDk.congr (imgK_eq x1 Y b hy)).unique hDref
  have eE : Em j q = E := (hEk.congr (imgK_eq x1 Y b hy)).unique hEref
  rw [href, eD, eE, ld_R4, ld_R4, hx, hy]

end Cert.KernelIdeal.KValue

end
-- ==== Proof.ScratchEntries.lean ====
/-
  What an entry of the two scratch arrays bounds, after the first loop, at the extended reals.

  Row `s` of the first scratch, for `8 ≤ s < 1032`, holds at column `q` the greatest entry of row `s - 8` of the
  targets block over the in-range part of the window of nine columns centred at `q`; the first and the last eight rows
  hold the bottom element, which is below every bound. So an upper bound of a scratch entry is an upper bound of those
  (at most nine) target entries, and on a margin row every number is one. Dually the second scratch holds the least
  such entry, and the top element on its margin rows.
-/
import proofs.«410240_j29961691857675_3_alg».proof.Proof.KernelValue
import proofs.«410240_j29961691857675_3_alg».proof.Proof.Trips
import proofs.«410240_j29961691857675_3_alg».proof.Proof.PayMath
import proofs.«410240_j29961691857675_3_alg».proof.Proof.Spec

noncomputable section

namespace Cert.KernelIdeal.KValue

open Cert.KernelIdeal Cert.KernelIdeal.Gen Idealize.ShloMosaic Idealize.ShloMosaic.ValueIdx

/-! ## The scratch arrays are the scratch functions of the targets block -/

theorem sMax_eq_scratchMax (c : Dev nD) (i : grid0.Coords) (arg1 : Memref sig .tc .vmem S1x1024x1024 .f32) (harg1 : arg1.IsWhole) (arg2 : Memref sig .tc .vmem S1x1024x1024 .f32) (harg2 : arg2.IsWhole) (arg3 : Memref sig .tc .vmem S1x8x128 .f32) (harg3 : arg3.IsWhole) (arg4 : Memref sig .tc .vmem S1040x1024 .f32) (harg4 : arg4.IsWhole) (arg5 : Memref sig .tc .vmem S1040x1024 .f32) (harg5 : arg5.IsWhole) (x1 : Vec Ideal S1x1024x1024 .f32) (y : S1040x1024.Idx) :
    sMax c i arg1 harg1 arg2 harg2 arg3 harg3 arg4 harg4 arg5 harg5 x1 y = Trips.scratchMax x1 y := by
  have h := Trips.read_piecesMax (F := Ideal) Variants.none c none i arg1 harg1 arg2 harg2 arg3 harg3 arg4 harg4 arg5 harg5
    (harg2.unread x1) arg4.view arg4.view.junk y
  rw [harg2.read_unread] at h
  exact h

theorem sMin_eq_scratchMin (c : Dev nD) (i : grid0.Coords) (arg1 : Memref sig .tc .vmem S1x1024x1024 .f32) (harg1 : arg1.IsWhole) (arg2 : Memref sig .tc .vmem S1x1024x1024 .f32) (harg2 : arg2.IsWhole) (arg3 : Memref sig .tc .vmem S1x8x128 .f32) (harg3 : arg3.IsWhole) (arg4 : Memref sig .tc .vmem S1040x1024 .f32) (harg4 : arg4.IsWhole) (arg5 : Memref sig .tc .vmem S1040x1024 .f32) (harg5 : arg5.IsWhole) (x1 : Vec Ideal S1x1024x1024 .f32) (y : S1040x1024.Idx) :
    sMin c i arg1 harg1 arg2 harg2 arg3 harg3 arg4 harg4 arg5 harg5 x1 y = Trips.scratchMin x1 y := by
  have h := Trips.read_piecesMin (F := Ideal) Variants.none c none i arg1 harg1 arg2 harg2 arg3 harg3 arg4 harg4 arg5 harg5
    (harg2.unread x1) arg5.view arg5.view.junk y
  rw [harg2.read_unread] at h
  exact h

/-! ## The margin blocks: the bottom element, resp. the top element, at every index -/

theorem pay6_apply (j : S8x1024.Idx) : k0_pay6 (F := Ideal) j = (⊥ : EReal) :=
  (congrFun (shapeCast_self (broadcast S8x1024 (Scalar.ofBits (F := Ideal) .f32 0xFF800000#32)) shapeCasts_S8x1024_S8x1024) j).trans
    PayMath.ofBits_neg_inf

theorem pay7_apply (j : S8x1024.Idx) : k0_pay7 (F := Ideal) j = (⊥ : EReal) :=
  (congrFun (shapeCast_self (broadcast S8x1024 (Scalar.ofBits (F := Ideal) .f32 0xFF800000#32)) shapeCasts_S8x1024_S8x1024) j).trans
    PayMath.ofBits_neg_inf

theorem pay8_apply (j : S8x1024.Idx) : k0_pay8 (F := Ideal) j = (⊤ : EReal) :=
  (congrFun (shapeCast_self (broadcast S8x1024 (Scalar.ofBits (F := Ideal) .f32 0x7F800000#32)) shapeCasts_S8x1024_S8x1024) j).trans
    PayMath.ofBits_pos_inf

theorem pay9_apply (j : S8x1024.Idx) : k0_pay9 (F := Ideal) j = (⊤ : EReal) :=
  (congrFun (shapeCast_self (broadcast S8x1024 (Scalar.ofBits (F := Ideal) .f32 0x7F800000#32)) shapeCasts_S8x1024_S8x1024) j).trans
    PayMath.ofBits_pos_inf

/-! ## A row of a loaded chunk is a row of the targets block -/

/-- Row `a` of the chunk trip `k` of the first loop loads is row `128 k + a` of the block, as sequences. -/
theorem rowOf_ld (x1 : Vec Ideal S1x1024x1024 .f32) (k : Fin k0_t1_loop.trips) (a : Fin 128) (p : ℕ) :
    PayMath.rowOf (View.ld x1 (Trips.R1 k)) a p = imgK x1 (128 * k.val + a.val) p := by
  have hk : k.val < 8 := Nat.lt_of_lt_of_eq k.isLt Trips.trips1
  have ha := a.isLt
  unfold PayMath.rowOf imgK
  by_cases hp : p < 1024
  · rw [dif_pos hp, dif_pos ⟨by omega, hp⟩]
    show x1 _ = x1 _
    congr 1
    funext d
    apply Fin.ext
    match d with
    | ⟨0, _⟩ => show k0_off1 k 0 + 1 * 0 = 0; rw [k0_off1_eq]; rfl
    | ⟨1, _⟩ => show k0_off1 k 1 + 1 * a.val = 128 * k.val + a.val; rw [k0_off1_eq]; show 128 * k.val + 1 * a.val = _; omega
    | ⟨2, _⟩ => show k0_off1 k 2 + 1 * p = p; rw [k0_off1_eq]; show 0 + 1 * p = p; omega
  · rw [dif_neg hp, dif_neg fun h => hp h.2]

/-! ## What a scratch entry bounds -/

theorem sMax_entries (c : Dev nD) (i : grid0.Coords) (arg1 : Memref sig .tc .vmem S1x1024x1024 .f32) (harg1 : arg1.IsWhole) (arg2 : Memref sig .tc .vmem S1x1024x1024 .f32) (harg2 : arg2.IsWhole) (arg3 : Memref sig .tc .vmem S1x8x128 .f32) (harg3 : arg3.IsWhole) (arg4 : Memref sig .tc .vmem S1040x1024 .f32) (harg4 : arg4.IsWhole) (arg5 : Memref sig .tc .vmem S1040x1024 .f32) (harg5 : arg5.IsWhole) (x1 : Vec Ideal S1x1024x1024 .f32) (q s : ℕ) (hq : q < 1024) (hs : s < 1040) (e : EReal) :
    scrN (sMax c i arg1 harg1 arg2 harg2 arg3 harg3 arg4 harg4 arg5 harg5 x1) s q ≤ e ↔
      (8 ≤ s → s < 1032 → ∀ dc < 9, Cert.Spec.InWin q dc → imgK x1 (s - 8) (q + dc - 4) ≤ e) := by
  unfold scrN
  rw [dif_pos ⟨hs, hq⟩, sMax_eq_scratchMax]
  by_cases h0 : s < 8
  · rw [Trips.scratchMax_lo x1 _ ⟨s, h0⟩ ⟨q, hq⟩ rfl rfl, pay6_apply]
    exact ⟨fun _ h8 => absurd h8 (by omega), fun _ => bot_le⟩
  · by_cases h1 : s < 1032
    · obtain ⟨k, hk⟩ : ∃ k : Fin k0_t1_loop.trips, k.val = (s - 8) / 128 :=
        ⟨⟨(s - 8) / 128, Nat.lt_of_lt_of_eq (by omega) Trips.trips1.symm⟩, rfl⟩
      obtain ⟨a, ha⟩ : ∃ a : Fin 128, a.val = (s - 8) % 128 := ⟨⟨(s - 8) % 128, Nat.mod_lt _ (by omega)⟩, rfl⟩
      have hrow : 128 * k.val + a.val = s - 8 := by omega
      rw [Trips.scratchMax_chunk x1 _ k a ⟨q, hq⟩ (show s = 128 * k.val + 8 + a.val by omega) rfl, PayMath.pay11_le_iff]
      constructor
      · intro H _ _ dc hdc hw
        rw [← hrow, ← rowOf_ld]
        exact H dc hdc hw
      · intro H d hd hw
        rw [rowOf_ld, hrow]
        exact H (by omega) h1 d hd hw
    · obtain ⟨a, ha⟩ : ∃ a : Fin 8, a.val = s - 1032 := ⟨⟨s - 1032, by omega⟩, rfl⟩
      rw [Trips.scratchMax_hi x1 _ a ⟨q, hq⟩ (show s = 1032 + a.val by omega) rfl, pay7_apply]
      exact ⟨fun _ _ h => absurd h h1, fun _ => bot_le⟩

theorem sMin_entries (c : Dev nD) (i : grid0.Coords) (arg1 : Memref sig .tc .vmem S1x1024x1024 .f32) (harg1 : arg1.IsWhole) (arg2 : Memref sig .tc .vmem S1x1024x1024 .f32) (harg2 : arg2.IsWhole) (arg3 : Memref sig .tc .vmem S1x8x128 .f32) (harg3 : arg3.IsWhole) (arg4 : Memref sig .tc .vmem S1040x1024 .f32) (harg4 : arg4.IsWhole) (arg5 : Memref sig .tc .vmem S1040x1024 .f32) (harg5 : arg5.IsWhole) (x1 : Vec Ideal S1x1024x1024 .f32) (q s : ℕ) (hq : q < 1024) (hs : s < 1040) (e : EReal) :
    e ≤ scrN (sMin c i arg1 harg1 arg2 harg2 arg3 harg3 arg4 harg4 arg5 harg5 x1) s q ↔
      (8 ≤ s → s < 1032 → ∀ dc < 9, Cert.Spec.InWin q dc → e ≤ imgK x1 (s - 8) (q + dc - 4)) := by
  unfold scrN
  rw [dif_pos ⟨hs, hq⟩, sMin_eq_scratchMin]
  by_cases h0 : s < 8
  · rw [Trips.scratchMin_lo x1 _ ⟨s, h0⟩ ⟨q, hq⟩ rfl rfl, pay8_apply]
    exact ⟨fun _ h8 => absurd h8 (by omega), fun _ => le_top⟩
  · by_cases h1 : s < 1032
    · obtain ⟨k, hk⟩ : ∃ k : Fin k0_t1_loop.trips, k.val = (s - 8) / 128 :=
        ⟨⟨(s - 8) / 128, Nat.lt_of_lt_of_eq (by omega) Trips.trips1.symm⟩, rfl⟩
      obtain ⟨a, ha⟩ : ∃ a : Fin 128, a.val = (s - 8) % 128 := ⟨⟨(s - 8) % 128, Nat.mod_lt _ (by omega)⟩, rfl⟩
      have hrow : 128 * k.val + a.val = s - 8 := by omega
      rw [Trips.scratchMin_chunk x1 _ k a ⟨q, hq⟩ (show s = 128 * k.val + 8 + a.val by omega) rfl, PayMath.le_pay12_iff]
      constructor
      · intro H _ _ dc hdc hw
        rw [← hrow, ← rowOf_ld]
        exact H dc hdc hw
      · intro H d hd hw
        rw [rowOf_ld, hrow]
        exact H (by omega) h1 d hd hw
    · obtain ⟨a, ha⟩ : ∃ a : Fin 8, a.val = s - 1032 := ⟨⟨s - 1032, by omega⟩, rfl⟩
      rw [Trips.scratchMin_hi x1 _ a ⟨q, hq⟩ (show s = 1032 + a.val by omega) rfl, pay9_apply]
      exact ⟨fun _ _ h => absurd h h1, fun _ => le_top⟩

end Cert.KernelIdeal.KValue

end
-- ==== Proof.Bridge.lean ====
/-
  The bridge: the kernel program's result and the reference's are one extended real.

  Per image the kernel's second loop adds, trip by trip, the reference's weighted array over the trip's 128 rows to a
  sum started at zero; after eight trips the sum is the weighted array summed over the whole image. The grid point
  stores that sum in one cell of an otherwise zero tile, so the output array's total is the weighted array's total
  regrouped (by image, by chunk of rows, by row, by column): only commutativity and associativity of addition are
  used. Both programs then add the total to zero and divide by the same constant.
-/
import proofs.«410240_j29961691857675_3_alg».proof.Defs
import proofs.«410240_j29961691857675_3_alg».proof.Proof.Gen.KernelIdeal
import proofs.«410240_j29961691857675_3_alg».proof.Proof.Gen.ReferenceIdeal
import proofs.«410240_j29961691857675_3_alg».proof.Proof.Gen.Pre_finite_inputs
import proofs.«410240_j29961691857675_3_alg».proof.Proof.KernelHost
import proofs.«410240_j29961691857675_3_alg».proof.Proof.KernelChunk
import proofs.«410240_j29961691857675_3_alg».proof.Proof.ScratchEntries
import proofs.«410240_j29961691857675_3_alg».proof.Proof.RefSide
import proofs.«410240_j29961691857675_3_alg».proof.Proof.Sums
import proofs.«410240_j29961691857675_3_alg».proof.Proof.PayMath
import Idealize.ShloMosaic.PureOps.Ideal.Laws
import Idealize.ShloMosaic.Lib.ValueIdx
import Mathlib.Algebra.BigOperators.Fin

set_option maxRecDepth 16384

noncomputable section

namespace Cert.Bridge

open Cert.KernelIdeal Cert.KernelIdeal.Gen Cert.KernelIdeal.GenP
open Idealize.ShloMosaic Idealize.ShloMosaic.TcCoe Idealize.SL.Sem Idealize.ShloMosaic.ValueIdx
open Cert.Spec

/-! ## Eight steps of a sum -/

/-- A sequence that starts at `z` and grows by `S k` at step `k`, for eight steps, ends at `z` plus the sum of the `S k`. -/
theorem steps8 {M : Type*} [AddCommMonoid M] (A : ℕ → M) (S : Fin 8 → M) (z : M) (h0 : A 0 = z)
    (hk : ∀ k : Fin 8, A (k.val + 1) = A k.val + S k) : A 8 = z + ∑ k : Fin 8, S k := by
  have e1 : A 1 = A 0 + S 0 := hk 0
  have e2 : A 2 = A 1 + S 1 := hk 1
  have e3 : A 3 = A 2 + S 2 := hk 2
  have e4 : A 4 = A 3 + S 3 := hk 3
  have e5 : A 5 = A 4 + S 4 := hk 4
  have e6 : A 6 = A 5 + S 5 := hk 5
  have e7 : A 7 = A 6 + S 6 := hk 6
  have e8 : A 8 = A 7 + S 7 := hk 7
  rw [e8, e7, e6, e5, e4, e3, e2, e1, h0, Fin.sum_univ_eight]
  simp only [add_assoc]

/-! ## One image -/

/-- The carried sum after the eight trips is zero plus the reference's weighted array summed over image `b`, chunk by
    chunk: each trip adds its chunk's rows, the scratch buffers holding the row pass of the targets. -/
theorem acc_total (c : Dev nD) (i : grid0.Coords) (arg1 : Memref sig .tc .vmem S1x1024x1024 .f32) (harg1 : arg1.IsWhole) (arg2 : Memref sig .tc .vmem S1x1024x1024 .f32) (harg2 : arg2.IsWhole) (arg3 : Memref sig .tc .vmem S1x8x128 .f32) (harg3 : arg3.IsWhole) (arg4 : Memref sig .tc .vmem S1040x1024 .f32) (harg4 : arg4.IsWhole) (arg5 : Memref sig .tc .vmem S1040x1024 .f32) (harg5 : arg5.IsWhole) (x0 x1 : Vec Ideal S1x1024x1024 .f32)
    (X Y : FVec Ideal Cert.ReferenceIdeal.S16x1x1024x1024 .f32) (b : Fin 16)
    (hx : ∀ r q : Fin 1024, x0 (ix3 0 r q) = X (ix4 b 0 r q)) (hy : ∀ r q : Fin 1024, x1 (ix3 0 r q) = Y (ix4 b 0 r q)) :
    KValue.accAt c i arg1 harg1 arg2 harg2 arg3 harg3 arg4 harg4 arg5 harg5 x0 x1 8 (ix2 0 0)
      = Cert.Spec.ZERO + ∑ k : Fin 8, ∑ j : Fin 128, ∑ q : Fin 1024, Cert.RefSide.refW X Y (ix4 b 0 (Cert.Sums.rowOf k j) q) :=
  steps8 (fun n => KValue.accAt c i arg1 harg1 arg2 harg2 arg3 harg3 arg4 harg4 arg5 harg5 x0 x1 n (ix2 0 0))
    (fun k => ∑ j : Fin 128, ∑ q : Fin 1024, Cert.RefSide.refW X Y (ix4 b 0 (Cert.Sums.rowOf k j) q)) Cert.Spec.ZERO rfl
    (fun k => KValue.chunk c i arg1 harg1 arg2 harg2 arg3 harg3 arg4 harg4 arg5 harg5 x0 x1 X Y b hx hy
      (fun q s hq hs e => KValue.sMax_entries c i arg1 harg1 arg2 harg2 arg3 harg3 arg4 harg4 arg5 harg5 x1 q s hq hs e)
      (fun q s hq hs e => KValue.sMin_entries c i arg1 harg1 arg2 harg2 arg3 harg3 arg4 harg4 arg5 harg5 x1 q s hq hs e) k)

/-! ## The grand total -/

/-- The output array's total is the reference's weighted array's total: per image, the tile written back holds the
    image's sum in one cell and zero elsewhere. -/
theorem total_eq (m : (l : Loc nD τ sig) → Buf (Elt Ideal) l) (c : Dev nD) :
    ∑ i : S16x8x128.Idx, KHost.outArr m c i
      = ∑ i : Cert.ReferenceIdeal.S16x1x1024x1024.Idx,
          Cert.RefSide.refW (m ((c.tc : Thread nD τ).loc main_arg0)) (m ((c.tc : Thread nD τ).loc main_arg1)) i := by
  have hN : ∀ t : Fin 16, t.val < cfg0.N := fun t => lt_of_lt_of_eq t.isLt (show cfg0.N = 16 from N_0).symm
  rw [Cert.Sums.sum_idx3, Cert.Sums.sum_idx4]
  refine Finset.sum_congr rfl fun t _ => ?_
  rw [Cert.Sums.sum_fin_one,
    Cert.Sums.sum_rows (fun r => ∑ q : Fin 1024, Cert.RefSide.refW (m ((c.tc : Thread nD τ).loc main_arg0)) (m ((c.tc : Thread nD τ).loc main_arg1)) (ix4 t 0 r q))]
  -- the tile point t writes back, entry by entry
  have htile : ∀ (a : Fin 8) (l : Fin 128), KHost.outArr m c (ix3 t a l)
      = if a.val = 0 ∧ l.val = 0 then
          KValue.accAt c (grid0.coords ⟨t.val, hN t⟩) (ms0_0 ⟨t.val, hN t⟩) (hs0_0 ⟨t.val, hN t⟩) (ms0_1 ⟨t.val, hN t⟩) (hs0_1 ⟨t.val, hN t⟩) (ms0_2 ⟨t.val, hN t⟩) (hs0_2 ⟨t.val, hN t⟩) scM0_0 (Memref.isWhole_whole _) scM0_1 (Memref.isWhole_whole _)
            (iblk m c 0 ⟨t.val, hN t⟩) (iblk m c 1 ⟨t.val, hN t⟩) 8 (ix2 0 0)
        else 0 := by
    intro a l
    refine (KHost.outArr_apply m c t (hN t) a l).trans ?_
    refine (congrFun (KValue.out_eq c (grid0.coords ⟨t.val, hN t⟩) (ms0_0 ⟨t.val, hN t⟩) (hs0_0 ⟨t.val, hN t⟩) (ms0_1 ⟨t.val, hN t⟩) (hs0_1 ⟨t.val, hN t⟩) (ms0_2 ⟨t.val, hN t⟩) (hs0_2 ⟨t.val, hN t⟩) scM0_0 (Memref.isWhole_whole _) scM0_1 (Memref.isWhole_whole _)
      (iblk m c 0 ⟨t.val, hN t⟩) (iblk m c 1 ⟨t.val, hN t⟩)) (ix3 0 a l)).trans ?_
    refine (PayMath.out_block _ a l).trans ?_
    rw [show Cert.Spec.ZERO = 0 from Ideal.ofBits_zero_f32]
  rw [Finset.sum_congr rfl fun a _ => Finset.sum_congr rfl fun l _ => htile a l, Cert.Sums.sum_single_cell]
  refine (acc_total c (grid0.coords ⟨t.val, hN t⟩) (ms0_0 ⟨t.val, hN t⟩) (hs0_0 ⟨t.val, hN t⟩) (ms0_1 ⟨t.val, hN t⟩) (hs0_1 ⟨t.val, hN t⟩) (ms0_2 ⟨t.val, hN t⟩) (hs0_2 ⟨t.val, hN t⟩) scM0_0 (Memref.isWhole_whole _) scM0_1 (Memref.isWhole_whole _)
    (iblk m c 0 ⟨t.val, hN t⟩) (iblk m c 1 ⟨t.val, hN t⟩)
    (m ((c.tc : Thread nD τ).loc main_arg0)) (m ((c.tc : Thread nD τ).loc main_arg1)) t
    (fun r q => KHost.iblk0_apply m c t (hN t) r q) (fun r q => KHost.iblk1_apply m c t (hN t) r q)).trans ?_
  rw [show Cert.Spec.ZERO = 0 from Ideal.ofBits_zero_f32, zero_add]

/-! ## The results -/

/-- The kernel program's result is the reference's: zero plus the same total, divided by the same constant. -/
theorem result_eq (m : (l : Loc nD τ sig) → Buf (Elt Ideal) l) (c : Dev nD) :
    KHost.ktail (KHost.outArr m c)
      = Cert.RefSide.tail (Cert.RefSide.refW (m ((c.tc : Thread nD τ).loc main_arg0)) (m ((c.tc : Thread nD τ).loc main_arg1))) := by
  rw [KHost.ktail_eq, Cert.RefSide.tail_eq, total_eq]

/-- At the ideal values, from memories that agree on the arguments, both programs run, end with equal results and
    leave their arguments unchanged. -/
theorem algebraic : Cert.algebraic_KernelIdeal_ReferenceIdeal := by
  intro m ρ m' ρ' _ hagree
  refine ⟨fun c => KHost.ktail (KHost.outArr m c), KHost.run_kernel m ρ, ?_⟩
  refine (θ_run Cert.ReferenceIdeal.defs _ _).mono (fun _ h c => ⟨(h c).1.trans ?_, (h c).2⟩)
    (Cert.RefSide.run_ref m' ρ')
  rw [(hagree c).1, (hagree c).2]
  exact (result_eq m c).symm

end Cert.Bridge

end
-- ==== Proof.lean ====
/-
  The certificate: a per-image weighted binary cross entropy whose weights come from a 9 x 9 dilation and erosion of
  the target mask, summed over 16 images and divided by the element count, computed by a fused kernel (a separable,
  log-doubling window maximum and minimum through two row scratches, eight chunks of 128 rows per image, one partial
  sum per image written into a single cell of an otherwise zero output tile, then one host sum) against the plain
  array program (one 9 x 9 window reduction each for the maximum and the minimum, one sum over all entries).

  Over the extended reals the two agree exactly: a window's greatest (least) entry does not depend on the order in
  which it is taken — both sides are carried by their upper (lower) bounds —, the pointwise loss is the same
  expression, and the grand total is the same finite sum regrouped, which needs only commutativity and
  associativity of addition. No finiteness of the inputs is used.

  The three frame conjuncts: the two kernel programs' by the frame certificates (Proof/KernelFrame.lean,
  Proof/KernelIdealFrame.lean), the reference's by its run with the result dropped. The idealization rewrote no
  operation, so `preserves` is trivial. The algebraic conjunct is Proof/Bridge.lean's.
-/
import proofs.«410240_j29961691857675_3_alg».proof.Defs
import proofs.«410240_j29961691857675_3_alg».proof.Proof.Gen.Kernel
import proofs.«410240_j29961691857675_3_alg».proof.Proof.Gen.KernelIdeal
import proofs.«410240_j29961691857675_3_alg».proof.Proof.Gen.ReferenceIdeal
import proofs.«410240_j29961691857675_3_alg».proof.Proof.Gen.Pre_finite_inputs
import proofs.«410240_j29961691857675_3_alg».proof.Proof.KernelFrame
import proofs.«410240_j29961691857675_3_alg».proof.Proof.KernelIdealFrame
import proofs.«410240_j29961691857675_3_alg».proof.Proof.Gen.ReferenceIdeal.Run
import proofs.«410240_j29961691857675_3_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.GenP.frame m ρ

theorem frame_kernelIdeal : Cert.frame_KernelIdeal := fun m ρ _ => Cert.KernelIdeal.GenP.frame m ρ

theorem frame_reference : Cert.frame_ReferenceIdeal := fun m ρ _ =>
  (θ_run Cert.ReferenceIdeal.defs _ _).mono (fun _ h c => (h c).2) (Cert.ReferenceIdeal.Value.run (F := Ideal) m ρ)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, Cert.Bridge.algebraic⟩

end Cert.Proof

end
